-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x4096x4096 : Shape := ⟨4, ![1, 3, 4096, 4096]⟩
abbrev S512 : Shape := ⟨1, ![512]⟩
abbrev S_ : Shape := ⟨0, ![]⟩

class Facts : Prop where
  bcast_S_S1x3x4096x4096 : S_.BroadcastsInDim S1x3x4096x4096 (![] : Fin 0 → Fin S1x3x4096x4096.rank)
  reducesTo_S1x3x4096x4096_S_d0_1_2_3 : S1x3x4096x4096.ReducesTo [0, 1, 2, 3] S_
  h_S_ : 0 < S_.numel
  bcast_S_S512 : S_.BroadcastsInDim S512 (![] : Fin 0 → Fin S512.rank)
  reducesTo_S512_S_d0 : S512.ReducesTo [0] S_

variable [Facts]

def fn_part1 {F : FTy → Type} [FloatOps F] (main_v10 : IVec S_ 1) (main_v15 : IVec S512 1) (main_c_5 : IVec S_ 1) : IVec S_ 1 :=
  let main_v16 : IVec S_ 1 := (fun x v => Host.reduce IntOp.andi x v reducesTo_S512_S_d0 h_S_) main_v15 main_c_5
  let main_v17 : IVec S_ 1 := andi main_v10 main_v16
  main_v17

def fn {F : FTy → Type} [FloatOps F] (main_arg0 : FVec F S1x3x4096x4096 .f32) (main_arg1 : IVec S512 32) (main_arg2 : IVec S512 32) : IVec S_ 1 :=
  let main_v0 : FVec F S1x3x4096x4096 .f32 := Host.absf main_arg0
  let main_cst : FVec F S_ .f32 := constant S_ .f32 0x7F800000#32
  let main_v1 : FVec F S1x3x4096x4096 .f32 := broadcastInDim S1x3x4096x4096 ![] bcast_S_S1x3x4096x4096 main_cst
  let main_v2 : IVec S1x3x4096x4096 1 := cmpf .olt main_v0 main_v1
  let main_c : IVec S_ 1 := constantI S_ 1 1#1
  let main_v3 : IVec S_ 1 := (fun x v => Host.reduce IntOp.andi x v reducesTo_S1x3x4096x4096_S_d0_1_2_3 h_S_) main_v2 main_c
  let main_c_0 : IVec S_ 32 := constantI S_ 32 0#32
  let main_v4 : IVec S512 32 := broadcastInDim S512 ![] bcast_S_S512 main_c_0
  let main_v5 : IVec S512 1 := cmpi .sge main_arg1 main_v4
  let main_c_1 : IVec S_ 32 := constantI S_ 32 4096#32
  let main_v6 : IVec S512 32 := broadcastInDim S512 ![] bcast_S_S512 main_c_1
  let main_v7 : IVec S512 1 := cmpi .slt main_arg1 main_v6
  let main_v8 : IVec S512 1 := andi main_v5 main_v7
  let main_c_2 : IVec S_ 1 := constantI S_ 1 1#1
  let main_v9 : IVec S_ 1 := (fun x v => Host.reduce IntOp.andi x v reducesTo_S512_S_d0 h_S_) main_v8 main_c_2
  let main_v10 : IVec S_ 1 := andi main_v3 main_v9
  let main_c_3 : IVec S_ 32 := constantI S_ 32 0#32
  let main_v11 : IVec S512 32 := broadcastInDim S512 ![] bcast_S_S512 main_c_3
  let main_v12 : IVec S512 1 := cmpi .sge main_arg2 main_v11
  let main_c_4 : IVec S_ 32 := constantI S_ 32 4096#32
  let main_v13 : IVec S512 32 := broadcastInDim S512 ![] bcast_S_S512 main_c_4
  let main_v14 : IVec S512 1 := cmpi .slt main_arg2 main_v13
  let main_v15 : IVec S512 1 := andi main_v12 main_v14
  let main_c_5 : IVec S_ 1 := constantI S_ 1 1#1
  fn_part1 (F := F) main_v10 main_v15 main_c_5
-- ==== Kernel.lean ====
abbrev S1x3x4096x4096 : Shape := ⟨4, ![1, 3, 4096, 4096]⟩
abbrev S512 : Shape := ⟨1, ![512]⟩
abbrev S3x4096x4096 : Shape := ⟨3, ![3, 4096, 4096]⟩
abbrev S3x31x4096 : Shape := ⟨3, ![3, 31, 4096]⟩
abbrev S3x4127x4096 : Shape := ⟨3, ![3, 4127, 4096]⟩
abbrev S3x4127x31 : Shape := ⟨3, ![3, 4127, 31]⟩
abbrev S3x4127x4127 : Shape := ⟨3, ![3, 4127, 4127]⟩
abbrev S256x6x32x32 : Shape := ⟨4, ![256, 6, 32, 32]⟩
abbrev S1x3x32x32 : Shape := ⟨4, ![1, 3, 32, 32]⟩
abbrev S3x32x32 : Shape := ⟨3, ![3, 32, 32]⟩
abbrev S_ : Shape := ⟨0, ![]⟩
abbrev S1 : Shape := ⟨1, ![1]⟩

abbrev nBuf : Space → Nat
  | .hbm => 7
  | .vmem => 3
  | .smem => 2
  | _ => 0

abbrev bufTy : (tb : Table) → Fin (tcTables nBuf tb) → BufTy
  | .hbm, ⟨0, _⟩ => ⟨S1x3x4096x4096, .f32⟩
  | .hbm, ⟨1, _⟩ => ⟨S3x4096x4096, .f32⟩
  | .hbm, ⟨2, _⟩ => ⟨S3x31x4096, .f32⟩
  | .hbm, ⟨3, _⟩ => ⟨S3x4127x4096, .f32⟩
  | .hbm, ⟨4, _⟩ => ⟨S3x4127x31, .f32⟩
  | .hbm, ⟨5, _⟩ => ⟨S3x4127x4127, .f32⟩
  | .hbm, ⟨6, _⟩ => ⟨S256x6x32x32, .f32⟩
  | .local _ .vmem, ⟨0, _⟩ => ⟨S1x3x32x32, .f32⟩
  | .local _ .vmem, ⟨1, _⟩ => ⟨S1x3x32x32, .f32⟩
  | .local _ .vmem, ⟨2, _⟩ => ⟨S3x32x32, .f32⟩
  | .local _ .smem, ⟨0, _⟩ => ⟨S512, .i32⟩
  | .local _ .smem, ⟨1, _⟩ => ⟨S512, .i32⟩
  | _, _ => ⟨S1x3x4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![256, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : Index := Scalar.indexCast v1
  ![v2.toNat]
def k0_off2 (v3 : BitVec 32) (v5 : BitVec 32) : Fin 3 → Nat :=
  let c0_i32 : BitVec 32 := 0#32
  ![0, v3.toNat, v5.toNat]

def k0_chk1 (v3 : BitVec 32) (v5 : BitVec 32) : Prop :=
  (∀ a, (k0_off2 v3 v5) a + S3x32x32.size a ≤ S3x4127x4127.size a)
instance k0_chk1.dec : ∀ (v3 : BitVec 32) (v5 : BitVec 32), Decidable (k0_chk1 v3 v5) := fun v3 v5 => decidable_of_iff' _ (Iff.of_eq (k0_chk1.eq_1 v3 v5))
theorem k0_off2_inb : ∀ (v3 : BitVec 32) (v5 : BitVec 32) (k0_hw1 : k0_chk1 v3 v5), ∀ a, (k0_off2 v3 v5) a + S3x32x32.size a ≤ S3x4127x4127.size a := fun v3 v5 k0_hw1 => k0_hw1

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  shapeCasts_S1x3x4096x4096_S3x4096x4096 : S1x3x4096x4096.ShapeCasts S3x4096x4096
  slices_S3x4096x4096_S3x31x4096_0_0_0 : S3x4096x4096.Slices ![0, 0, 0] S3x31x4096
  concatenates_S3x4096x4096_S3x31x4096_S3x4127x4096_d1 : Shape.Concatenates [S3x4096x4096, S3x31x4096] S3x4127x4096 1
  slices_S3x4127x4096_S3x4127x31_0_0_0 : S3x4127x4096.Slices ![0, 0, 0] S3x4127x31
  concatenates_S3x4127x4096_S3x4127x31_S3x4127x4127_d2 : Shape.Concatenates [S3x4127x4096, S3x4127x31] S3x4127x4127 2
  numel1_S1 : S1.numel = 1
  inb_S3x32x32_S3x32x32_0_0_0 : ∀ a, (![0, 0, 0] : Fin 3 → Nat) a + S3x32x32.size a ≤ S3x32x32.size a
  h_S3x32x32 : 0 < S3x32x32.numel
  inb_S1x3x32x32_S1x3x32x32_0_0_0_0 : ∀ a, (![0, 0, 0, 0] : Fin 4 → Nat) a + S1x3x32x32.size a ≤ S1x3x32x32.size a
  h_S1x3x32x32 : 0 < S1x3x32x32.numel
  shapeCasts_S1x3x32x32_S3x32x32 : S1x3x32x32.ShapeCasts S3x32x32
  shapeCasts_S3x32x32_S1x3x32x32 : S3x32x32.ShapeCasts S1x3x32x32
  hcc0_scratch1 : 2 + S_.numel ≤ 3
  hrank0 : 0 < grid0.rank
  k0_off1_inb : ∀ i : grid0.Coords, ∀ a, (k0_off1 i) a + S1.size a ≤ S512.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x3x32x32.size a ≤ S256x6x32x32.size a
  hwx0_0 : ∀ i : grid0.Coords, EltTy.bits .f32 = 32 ∨ (Rect.block (s := S256x6x32x32) S1x3x32x32.size (cc0_transform_1 i) (hinb0_0 i)).WholeWords (EltTy.packing .f32)

variable [Facts₀]

abbrev cc0_scratch1 : DmaSems sig S_ := SemArray.consecutive 2 S_ hcc0_scratch1

abbrev spec0_0 : Pipeline.WinSpec sig grid0.rank :=
  Pipeline.WinSpec.ofSpec (Memref.whole main_v5) S1x3x32x32.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S1x3x4096x4096 : Shape := ⟨4, ![1, 3, 4096, 4096]⟩
abbrev S512 : Shape := ⟨1, ![512]⟩
abbrev S512x1 : Shape := ⟨2, ![512, 1]⟩
abbrev S32 : Shape := ⟨1, ![32]⟩
abbrev S1x32 : Shape := ⟨2, ![1, 32]⟩
abbrev S512x32 : Shape := ⟨2, ![512, 32]⟩
abbrev S_ : Shape := ⟨0, ![]⟩
abbrev S3x4096x4096 : Shape := ⟨3, ![3, 4096, 4096]⟩
abbrev S512x32x1 : Shape := ⟨3, ![512, 32, 1]⟩
abbrev S512x1x32 : Shape := ⟨3, ![512, 1, 32]⟩
abbrev S512x32x32 : Shape := ⟨3, ![512, 32, 32]⟩
abbrev S512x32x32x1 : Shape := ⟨4, ![512, 32, 32, 1]⟩
abbrev S512x32x32x2 : Shape := ⟨4, ![512, 32, 32, 2]⟩
abbrev S3x512x32x32 : Shape := ⟨4, ![3, 512, 32, 32]⟩
abbrev S512x3x32x32 : Shape := ⟨4, ![512, 3, 32, 32]⟩
abbrev S256x6x32x32 : Shape := ⟨4, ![256, 6, 32, 32]⟩

abbrev nBuf : Space → Nat
  | .hbm => 84
  | .vmem => 0
  | .smem => 0
  | _ => 0

abbrev bufTy : (tb : Table) → Fin (tcTables nBuf tb) → BufTy
  | .hbm, ⟨0, _⟩ => ⟨S1x3x4096x4096, .f32⟩
  | .hbm, ⟨1, _⟩ => ⟨S512, .i32⟩
  | .hbm, ⟨2, _⟩ => ⟨S512, .i32⟩
  | .hbm, ⟨3, _⟩ => ⟨S512x1, .i32⟩
  | .hbm, ⟨4, _⟩ => ⟨S32, .i32⟩
  | .hbm, ⟨5, _⟩ => ⟨S1x32, .i32⟩
  | .hbm, ⟨6, _⟩ => ⟨S512x32, .i32⟩
  | .hbm, ⟨7, _⟩ => ⟨S512x32, .i32⟩
  | .hbm, ⟨8, _⟩ => ⟨S512x32, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S512x32, .i32⟩
  | .hbm, ⟨16, _⟩ => ⟨S512x32, .i32⟩
  | .hbm, ⟨17, _⟩ => ⟨S_, .i32⟩
  | .hbm, ⟨18, _⟩ => ⟨S512x32, .i32⟩
  | .hbm, ⟨19, _⟩ => ⟨S512x32, .i1⟩
  | .hbm, ⟨20, _⟩ => ⟨S_, .i32⟩
  | .hbm, ⟨21, _⟩ => ⟨S512x32, .i32⟩
  | .hbm, ⟨22, _⟩ => ⟨S512x32, .i1⟩
  | .hbm, ⟨23, _⟩ => ⟨S_, .i32⟩
  | .hbm, ⟨24, _⟩ => ⟨S_, .i1⟩
  | .hbm, ⟨25, _⟩ => ⟨S512x32, .i1⟩
  | .hbm, ⟨26, _⟩ => ⟨S512x32, .i1⟩
  | .hbm, ⟨27, _⟩ => ⟨S512x32, .i1⟩
  | .hbm, ⟨28, _⟩ => ⟨S512x32, .i32⟩
  | .hbm, ⟨29, _⟩ => ⟨S512x32, .i32⟩
  | .hbm, ⟨30, _⟩ => ⟨S512x32, .i32⟩
  | .hbm, ⟨31, _⟩ => ⟨S512x1, .i32⟩
  | .hbm, ⟨32, _⟩ => ⟨S32, .i32⟩
  | .hbm, ⟨33, _⟩ => ⟨S1x32, .i32⟩
  | .hbm, ⟨34, _⟩ => ⟨S512x32, .i32⟩
  | .hbm, ⟨35, _⟩ => ⟨S512x32, .i32⟩
  | .hbm, ⟨36, _⟩ => ⟨S512x32, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S512x32, .i32⟩
  | .hbm, ⟨44, _⟩ => ⟨S512x32, .i32⟩
  | .hbm, ⟨45, _⟩ => ⟨S_, .i32⟩
  | .hbm, ⟨46, _⟩ => ⟨S512x32, .i32⟩
  | .hbm, ⟨47, _⟩ => ⟨S512x32, .i1⟩
  | .hbm, ⟨48, _⟩ => ⟨S_, .i32⟩
  | .hbm, ⟨49, _⟩ => ⟨S512x32, .i32⟩
  | .hbm, ⟨50, _⟩ => ⟨S512x32, .i1⟩
  | .hbm, ⟨51, _⟩ => ⟨S_, .i32⟩
  | .hbm, ⟨52, _⟩ => ⟨S_, .i1⟩
  | .hbm, ⟨53, _⟩ => ⟨S512x32, .i1⟩
  | .hbm, ⟨54, _⟩ => ⟨S512x32, .i1⟩
  | .hbm, ⟨55, _⟩ => ⟨S512x32, .i1⟩
  | .hbm, ⟨56, _⟩ => ⟨S512x32, .i32⟩
  | .hbm, ⟨57, _⟩ => ⟨S512x32, .i32⟩
  | .hbm, ⟨58, _⟩ => ⟨S512x32, .i32⟩
  | .hbm, ⟨59, _⟩ => ⟨S3x4096x4096, .f32⟩
  | .hbm, ⟨60, _⟩ => ⟨S512x32x1, .i32⟩
  | .hbm, ⟨61, _⟩ => ⟨S512x1x32, .i32⟩
  | .hbm, ⟨62, _⟩ => ⟨S_, .i32⟩
  | .hbm, ⟨63, _⟩ => ⟨S512x32x1, .i32⟩
  | .hbm, ⟨64, _⟩ => ⟨S512x32x1, .i1⟩
  | .hbm, ⟨65, _⟩ => ⟨S_, .i32⟩
  | .hbm, ⟨66, _⟩ => ⟨S512x32x1, .i32⟩
  | .hbm, ⟨67, _⟩ => ⟨S512x32x1, .i32⟩
  | .hbm, ⟨68, _⟩ => ⟨S512x32x1, .i32⟩
  | .hbm, ⟨69, _⟩ => ⟨S_, .i32⟩
  | .hbm, ⟨70, _⟩ => ⟨S512x1x32, .i32⟩
  | .hbm, ⟨71, _⟩ => ⟨S512x1x32, .i1⟩
  | .hbm, ⟨72, _⟩ => ⟨S_, .i32⟩
  | .hbm, ⟨73, _⟩ => ⟨S512x1x32, .i32⟩
  | .hbm, ⟨74, _⟩ => ⟨S512x1x32, .i32⟩
  | .hbm, ⟨75, _⟩ => ⟨S512x1x32, .i32⟩
  | .hbm, ⟨76, _⟩ => ⟨S512x32x32, .i32⟩
  | .hbm, ⟨77, _⟩ => ⟨S512x32x32, .i32⟩
  | .hbm, ⟨78, _⟩ => ⟨S512x32x32x1, .i32⟩
  | .hbm, ⟨79, _⟩ => ⟨S512x32x32x1, .i32⟩
  | .hbm, ⟨80, _⟩ => ⟨S512x32x32x2, .i32⟩
  | .hbm, ⟨81, _⟩ => ⟨S3x512x32x32, .f32⟩
  | .hbm, ⟨82, _⟩ => ⟨S512x3x32x32, .f32⟩
  | .hbm, ⟨83, _⟩ => ⟨S256x6x32x32, .f32⟩
  | _, _ => ⟨S1x3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_c_1 : Ref sig .tc := ⟨.hbm, 62, rfl⟩
abbrev main_v17 : Ref sig .tc := ⟨.hbm, 63, rfl⟩
abbrev main_v18 : Ref sig .tc := ⟨.hbm, 64, rfl⟩
abbrev main_c_2 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_c_3 : Ref sig .tc := ⟨.hbm, 69, rfl⟩
abbrev main_v22 : Ref sig .tc := ⟨.hbm, 70, rfl⟩
abbrev main_v23 : Ref sig .tc := ⟨.hbm, 71, rfl⟩
abbrev main_c_4 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S32_S1x32_1 : S32.BroadcastsInDim S1x32 (![1] : Fin 1 → Fin S1x32.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  shapeCasts_S1x3x4096x4096_S3x4096x4096 : S1x3x4096x4096.ShapeCasts S3x4096x4096
  bcast_S512x32_S512x32x1_0_1 : S512x32.BroadcastsInDim S512x32x1 (![0, 1] : Fin 2 → Fin S512x32x1.rank)
  bcast_S512x32_S512x1x32_0_2 : S512x32.BroadcastsInDim S512x1x32 (![0, 2] : Fin 2 → Fin S512x1x32.rank)
  bcast_S_S512x32x1 : S_.BroadcastsInDim S512x32x1 (![] : Fin 0 → Fin S512x32x1.rank)
  bcast_S_S512x1x32 : S_.BroadcastsInDim S512x1x32 (![] : Fin 0 → Fin S512x1x32.rank)
  bcast_S512x32x1_S512x32x32_0_1_2 : S512x32x1.BroadcastsInDim S512x32x32 (![0, 1, 2] : Fin 3 → Fin S512x32x32.rank)
  bcast_S512x1x32_S512x32x32_0_1_2 : S512x1x32.BroadcastsInDim S512x32x32 (![0, 1, 2] : Fin 3 → Fin S512x32x32.rank)
  bcast_S512x32x32_S512x32x32x1_0_1_2 : S512x32x32.BroadcastsInDim S512x32x32x1 (![0, 1, 2] : Fin 3 → Fin S512x32x32x1.rank)
  concatenates_S512x32x32x1_S512x32x32x1_S512x32x32x2_d3 : Shape.Concatenates [S512x32x32x1, S512x32x32x1] S512x32x32x2 3
  transposes_S3x512x32x32_S512x3x32x32_1_0_2_3 : S3x512x32x32.Transposes [1, 0, 2, 3] S512x3x32x32
  shapeCasts_S512x3x32x32_S256x6x32x32 : S512x3x32x32.ShapeCasts S256x6x32x32
  gather_S3x4096x4096_S512x32x32x2_S3x512x32x32_0_12_n_n_12_3_311_wf : GatherDims.WF S3x4096x4096 S512x32x32x2 S3x512x32x32 [0] [1, 2] [] [1, 2] [] 3 ![3, 1, 1]

variable [Facts₀]

def gather_S3x4096x4096_S512x32x32x2_S3x512x32x32_0_12_n_n_12_3_311 : GatherDims S3x4096x4096 S512x32x32x2 S3x512x32x32 where
  offsetDims := [0]
  collapsedSliceDims := [1, 2]
  operandBatchingDims := []
  startIndicesBatchingDims := []
  startIndexMap := [1, 2]
  indexVectorDim := 3
  sliceSizes := ![3, 1, 1]
  wf := gather_S3x4096x4096_S512x32x32x2_S3x512x32x32_0_12_n_n_12_3_311_wf

class Facts : Prop extends Facts₀ where

variable [Facts]
-- ==== Proof.Spec.lean ====
/-
  The specification both programs are proved against: the patch gather on the torus.

  The image is f32[1, 3, 4096, 4096]; `ys`, `xs` are 512 patch origins. Output entry (b, q, i, j) of
  f32[256, 6, 32, 32] belongs to patch n = 2 b + q / 3 and channel q mod 3, and holds the image at row
  (ys[n] + i) mod 4096 and column (xs[n] + j) mod 4096 of that channel. The origins are read as the natural
  numbers their words encode; for origins in [0, 4096) that is their signed value, and the sums stay below
  4096 + 32, so the wrap takes off at most one period.
-/
import Idealize.ShloMosaic.PureOps
import Idealize.ShloMosaic.Lib.ValueIdx

namespace Cert.Patch

open Idealize.ShloMosaic Idealize.ShloMosaic.ValueIdx

abbrev SImg : Shape := ⟨4, ![1, 3, 4096, 4096]⟩
abbrev STab : Shape := ⟨1, ![512]⟩
abbrev SOut : Shape := ⟨4, ![256, 6, 32, 32]⟩

/-- Entry `n mod 512` of a table of 512 words. -/
def tabIdx (n : Nat) : STab.Idx := ix1 (⟨n % 512, Nat.mod_lt _ (by decide)⟩ : Fin 512)

/-- The image index of channel `q mod 3`, row `r mod 4096`, column `c mod 4096`: a point of the torus. -/
def imgIdx (q r c : Nat) : SImg.Idx :=
  ix4 (0 : Fin 1) (⟨q % 3, Nat.mod_lt _ (by decide)⟩ : Fin 3) (⟨r % 4096, Nat.mod_lt _ (by decide)⟩ : Fin 4096)
    (⟨c % 4096, Nat.mod_lt _ (by decide)⟩ : Fin 4096)

/-- The patch an output entry (b, q, ·, ·) belongs to: 2 b + q / 3. -/
def patchOf (b q : Nat) : Nat := 2 * b + q / 3

/-- The gathered patches, entry by entry. -/
def G {α : Type} (img : SImg.Idx → α) (ys xs : IVec STab 32) : SOut.Idx → α := fun j =>
  img (imgIdx (j 1).val
    ((ys (tabIdx (patchOf (j 0).val (j 1).val))).toNat + (j 2).val)
    ((xs (tabIdx (patchOf (j 0).val (j 1).val))).toNat + (j 3).val))

theorem tabIdx_val (n : Nat) : (tabIdx n 0).val = n % 512 := rfl
theorem imgIdx_val0 (q r c : Nat) : (imgIdx q r c 0).val = 0 := rfl
theorem imgIdx_val1 (q r c : Nat) : (imgIdx q r c 1).val = q % 3 := rfl
theorem imgIdx_val2 (q r c : Nat) : (imgIdx q r c 2).val = r % 4096 := rfl
theorem imgIdx_val3 (q r c : Nat) : (imgIdx q r c 3).val = c % 4096 := rfl

/-- Two image indices with the same coordinates are the same index. -/
theorem imgIdx_eq (i : SImg.Idx) (q r c : Nat) (h1 : (i 1).val = q % 3) (h2 : (i 2).val = r % 4096)
    (h3 : (i 3).val = c % 4096) : i = imgIdx q r c := by
  funext a
  apply Fin.ext
  match a with
  | ⟨0, _⟩ => have := (i 0).isLt; show (i 0).val = 0; have e : SImg.size 0 = 1 := rfl; omega
  | ⟨1, _⟩ => exact h1
  | ⟨2, _⟩ => exact h2
  | ⟨3, _⟩ => exact h3

end Cert.Patch
-- ==== Proof.PreRange.lean ====
/-
  The precondition, decoded: every patch origin lies in [0, 4096).

  The predicate is the conjunction of three "all" tests, each a reduction by "and" to one bit: every image entry
  has finite magnitude; every word of `ys` is at least 0 and below 4096 as a signed integer; the same of `xs`.
  A reduction by "and" that comes out 1 met only 1s, so each word passes both comparisons, and a 32-bit word whose
  signed value lies in [0, 4096) has that same value unsigned.
-/
import proofs.«417583_j26929444946676_1_alg».proof.Pre_finite_inputs
import proofs.«417583_j26929444946676_1_alg».proof.Proof.Gen.Pre_finite_inputs
import proofs.«417583_j26929444946676_1_alg».proof.Proof.Spec
import Idealize.ShloMosaic.Lib.ReduceAll
import Idealize.ShloMosaic.Lib.Affine

noncomputable section

namespace Cert.Patch

open Idealize.ShloMosaic Idealize.ShloMosaic.ValueIdx

/-- The scalar shape has one index. -/
instance : Subsingleton Cert.Pre_finite_inputs.S_.Idx := ⟨fun _ _ => funext fun d => d.elim0⟩

/-- A word whose signed value is at least 0 and below 4096 is below 4096 read unsigned. -/
theorem toNat_lt_of_signed_range (w : BitVec 32) (h0 : (0#32 : BitVec 32).toInt ≤ w.toInt)
    (h1 : w.toInt < (4096#32 : BitVec 32).toInt) : w.toNat < 4096 := by
  have e0 : (0#32 : BitVec 32).toInt = 0 := by decide
  have e1 : (4096#32 : BitVec 32).toInt = 4096 := by decide
  rw [e0] at h0
  rw [e1] at h1
  have hw := w.isLt
  rw [BitVec.toInt_eq_toNat_cond] at h0 h1
  by_cases hm : 2 * w.toNat < 2 ^ 32
  · rw [if_pos hm] at h0 h1
    omega
  · rw [if_neg hm] at h0 h1
    omega

/-- One word of a table that passes the two comparisons of the predicate is in range. -/
theorem word_in_range (o : IVec Cert.Pre_finite_inputs.S512 32) (n : Cert.Pre_finite_inputs.S512.Idx)
    (h : (andi
        (cmpi CmpIPredicate.sge o
          (broadcastInDim Cert.Pre_finite_inputs.S512 ![] Cert.Pre_finite_inputs.Facts.bcast_S_S512
            (constantI Cert.Pre_finite_inputs.S_ 32 0#32)))
        (cmpi CmpIPredicate.slt o
          (broadcastInDim Cert.Pre_finite_inputs.S512 ![] Cert.Pre_finite_inputs.Facts.bcast_S_S512
            (constantI Cert.Pre_finite_inputs.S_ 32 4096#32)))) n = 1#1) : (o n).toNat < 4096 := by
  simp only [andi, cmpi, broadcastInDim, constantI] at h
  obtain ⟨h0, h1⟩ := IntOp.andi_eq_one.1 h
  exact toNat_lt_of_signed_range _ (IntOp.cmpi_sge.1 h0) (IntOp.cmpi_slt.1 h1)

/-- Under the precondition each word of `ys` and of `xs`, read unsigned, is below 4096. -/
theorem range_of_pre {F : FTy → Type} [FloatOps F] (img : FVec F SImg .f32) (ys xs : IVec STab 32)
    (h : Cert.Pre_finite_inputs.fn (F := F) img ys xs = fun _ => 1#1) (n : STab.Idx) :
    (ys n).toNat < 4096 ∧ (xs n).toNat < 4096 := by
  have e := congrFun h ValueIdx.ix0
  unfold Cert.Pre_finite_inputs.fn Cert.Pre_finite_inputs.fn_part1 at e
  dsimp only at e
  simp only [andi] at e
  obtain ⟨e12, e3⟩ := IntOp.andi_eq_one.1 e
  obtain ⟨-, e2⟩ := IntOp.andi_eq_one.1 e12
  exact ⟨word_in_range ys n (Host.reduce_andi_all _ _ _ _ _ e2 n),
    word_in_range xs n (Host.reduce_andi_all _ _ _ _ _ e3 n)⟩

end Cert.Patch

end
-- ==== Proof.KernelHyps.lean ====
/-
  The side condition the kernel body assumes at every grid point — the 32 x 32 window at the origin it has read fits
  the padded image of 4127 rows and columns — follows from the origins' range: 4095 + 32 = 4127.

  At a point the body reads one word of each table (through the whole table, so the word is the table's entry at some
  index) and assumes, axis by axis of the padded [3, 4127, 4127] image, offset + window extent <= extent with offsets
  (0, ys-word, xs-word) and window [3, 32, 32]. Every entry of either table is below 4096, whichever index is read.
-/
import proofs.«417583_j26929444946676_1_alg».proof.Defs
import proofs.«417583_j26929444946676_1_alg».proof.Proof.Gen.Kernel.Frame
import proofs.«417583_j26929444946676_1_alg».proof.Proof.Spec

set_option maxRecDepth 16384

noncomputable section

namespace Cert.Kernel.HypsOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The pipeline asks nothing of the tables: no index map reads them. -/
theorem ok : Ok m := by
  unfold Ok ok0
  trivial

/-- The window at offsets (0, v3, v5) fits the padded image when both words are below 4096. -/
theorem chk_of_lt (v3 v5 : BitVec 32) (h3 : v3.toNat < 4096) (h5 : v5.toNat < 4096) : k0_chk1 v3 v5 := by
  intro a
  match a with
  | ⟨0, _⟩ => show 0 + 3 ≤ 3; omega
  | ⟨1, _⟩ => show v3.toNat + 32 ≤ 4127; omega
  | ⟨2, _⟩ => show v5.toNat + 32 ≤ 4127; omega

/-- A word read through the whole first table is an entry of the table. -/
theorem word0 (r : LoadRect S512) (xt : TbBuf0 (F := F) (0 : Dev nD) tbM0_0) (x : r.shape.Idx) :
    ∃ n : S512.Idx, tbM0_0.view.readAt (Elt F) r xt x = xt n := ⟨_, rfl⟩

/-- A word read through the whole second table is an entry of the table. -/
theorem word1 (r : LoadRect S512) (xt : TbBuf0 (F := F) (0 : Dev nD) tbM0_1) (x : r.shape.Idx) :
    ∃ n : S512.Idx, tbM0_1.view.readAt (Elt F) r xt x = xt n := ⟨_, rfl⟩

/-- The body's assumed side condition at every point, from the origins' range. -/
theorem hyps_of_range (hO : Ok m)
    (hr : ∀ n : S512.Idx, (m (((0 : Dev nD).tc : Thread nD τ).loc main_arg1) n).toNat < 4096
      ∧ (m (((0 : Dev nD).tc : Thread nD τ).loc main_arg2) n).toNat < 4096) : Hyps m hO := by
  intro c t
  have e0 : tbl m 0 = m (((0 : Dev nD).tc : Thread nD τ).loc main_arg1) := V_main_arg1 m 0
  have e1 : tbl m 1 = m (((0 : Dev nD).tc : Thread nD τ).loc main_arg2) := V_main_arg2 m 0
  obtain ⟨n0, h0⟩ := word0 (F := F) (Rect.unit (s := S512) (k0_off1 (grid0.coords t)) S1.size (k0_off1_inb (grid0.coords t))).toLoadRect
    (tbl m 0) (Shape.Idx.first (numel1_S1.symm ▸ Nat.one_pos))
  obtain ⟨n1, h1⟩ := word1 (F := F) (Rect.unit (s := S512) (k0_off1 (grid0.coords t)) S1.size (k0_off1_inb (grid0.coords t))).toLoadRect
    (tbl m 1) (Shape.Idx.first (numel1_S1.symm ▸ Nat.one_pos))
  refine chk_of_lt _ _ ?_ ?_
  · rw [h0, e0]; exact (hr n0).1
  · rw [h1, e1]; exact (hr n1).2

end Cert.Kernel.HypsOfPre

end
-- ==== Proof.KernelIdealHyps.lean ====
/-
  The side condition the kernel body assumes at every grid point — the 32 x 32 window at the origin it has read fits
  the padded image of 4127 rows and columns — follows from the origins' range: 4095 + 32 = 4127.

  At a point the body reads one word of each table (through the whole table, so the word is the table's entry at some
  index) and assumes, axis by axis of the padded [3, 4127, 4127] image, offset + window extent <= extent with offsets
  (0, ys-word, xs-word) and window [3, 32, 32]. Every entry of either table is below 4096, whichever index is read.
-/
import proofs.«417583_j26929444946676_1_alg».proof.Defs
import proofs.«417583_j26929444946676_1_alg».proof.Proof.Gen.KernelIdeal.Frame
import proofs.«417583_j26929444946676_1_alg».proof.Proof.Spec

set_option maxRecDepth 16384

noncomputable section

namespace Cert.KernelIdeal.HypsOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The pipeline asks nothing of the tables: no index map reads them. -/
theorem ok : Ok m := by
  unfold Ok ok0
  trivial

/-- The window at offsets (0, v3, v5) fits the padded image when both words are below 4096. -/
theorem chk_of_lt (v3 v5 : BitVec 32) (h3 : v3.toNat < 4096) (h5 : v5.toNat < 4096) : k0_chk1 v3 v5 := by
  intro a
  match a with
  | ⟨0, _⟩ => show 0 + 3 ≤ 3; omega
  | ⟨1, _⟩ => show v3.toNat + 32 ≤ 4127; omega
  | ⟨2, _⟩ => show v5.toNat + 32 ≤ 4127; omega

/-- A word read through the whole first table is an entry of the table. -/
theorem word0 (r : LoadRect S512) (xt : TbBuf0 (F := F) (0 : Dev nD) tbM0_0) (x : r.shape.Idx) :
    ∃ n : S512.Idx, tbM0_0.view.readAt (Elt F) r xt x = xt n := ⟨_, rfl⟩

/-- A word read through the whole second table is an entry of the table. -/
theorem word1 (r : LoadRect S512) (xt : TbBuf0 (F := F) (0 : Dev nD) tbM0_1) (x : r.shape.Idx) :
    ∃ n : S512.Idx, tbM0_1.view.readAt (Elt F) r xt x = xt n := ⟨_, rfl⟩

/-- The body's assumed side condition at every point, from the origins' range. -/
theorem hyps_of_range (hO : Ok m)
    (hr : ∀ n : S512.Idx, (m (((0 : Dev nD).tc : Thread nD τ).loc main_arg1) n).toNat < 4096
      ∧ (m (((0 : Dev nD).tc : Thread nD τ).loc main_arg2) n).toNat < 4096) : Hyps m hO := by
  intro c t
  have e0 : tbl m 0 = m (((0 : Dev nD).tc : Thread nD τ).loc main_arg1) := V_main_arg1 m 0
  have e1 : tbl m 1 = m (((0 : Dev nD).tc : Thread nD τ).loc main_arg2) := V_main_arg2 m 0
  obtain ⟨n0, h0⟩ := word0 (F := F) (Rect.unit (s := S512) (k0_off1 (grid0.coords t)) S1.size (k0_off1_inb (grid0.coords t))).toLoadRect
    (tbl m 0) (Shape.Idx.first (numel1_S1.symm ▸ Nat.one_pos))
  obtain ⟨n1, h1⟩ := word1 (F := F) (Rect.unit (s := S512) (k0_off1 (grid0.coords t)) S1.size (k0_off1_inb (grid0.coords t))).toLoadRect
    (tbl m 1) (Shape.Idx.first (numel1_S1.symm ▸ Nat.one_pos))
  refine chk_of_lt _ _ ?_ ?_
  · rw [h0, e0]; exact (hr n0).1
  · rw [h1, e1]; exact (hr n1).2

end Cert.KernelIdeal.HypsOfPre

end
-- ==== Proof.KernelValue.lean ====
/-
  The idealized kernel's result: patch n = 2 b + s of the padded image, which is the torus gather of the image.

  The image is padded to [3, 4127, 4127] (its first 31 rows again below the last, then the first 31 columns again on the
  right), so the padded array at (ch, r, l) is the image at channel ch, row r mod 4096, column l mod 4096. At grid point t
  (coordinates (t / 2, t mod 2)) the body reads entry t of the two origin tables, copies the [3, 32, 32] window of the padded
  array at those origins, and stores it as the [1, 3, 32, 32] output block of index (t / 2, t mod 2, 0, 0): entry (0, ch, r, l)
  of that block is output entry (t / 2, 3 (t mod 2) + ch, r, l), whose patch is 2 (t / 2) + (t mod 2) = t and whose channel is
  ch. The window fits the padded array (the side condition assumed of the origins), so the padded rows and columns it
  reads are the image's at the sums of origin and offset taken mod 4096. The 512 blocks tile the output.
-/
import proofs.«417583_j26929444946676_1_alg».proof.Defs
import proofs.«417583_j26929444946676_1_alg».proof.Proof.Gen.KernelIdeal.Frame
import proofs.«417583_j26929444946676_1_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.PatchValue

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-- A property of the four axes, axis by axis. -/
private theorem forall_fin4 {P : Fin 4 → Prop} (h0 : P 0) (h1 : P 1) (h2 : P 2) (h3 : P 3) : ∀ a, P a := by
  intro a; fin_cases a <;> assumption

section Pad
variable {α : Type}

/-- A property of the three axes, axis by axis. -/
private theorem forall_fin3 {P : Fin 3 → Prop} (h0 : P 0) (h1 : P 1) (h2 : P 2) : ∀ a, P a := by
  intro a; fin_cases a <;> assumption

/-- The image with its leading unit axis dropped reads (ch, r, l) at (0, ch, r, l). -/
private theorem flat_apply (x : S1x3x4096x4096.Idx → α) (h : S1x3x4096x4096.ShapeCasts S3x4096x4096) (j : S3x4096x4096.Idx) :
    shapeCast S3x4096x4096 x h j = x (Cert.Patch.imgIdx (j 0).val (j 1).val (j 2).val) := by
  have b0 : (j 0).val < 3 := (j 0).isLt
  have b1 : (j 1).val < 4096 := (j 1).isLt
  have b2 : (j 2).val < 4096 := (j 2).isLt
  refine shapeCast_apply x h j _ ?_
  rw [Shape.rowMajor_val_four, Shape.rowMajor_val_three]
  show ((0 * 3 + (j 0).val % 3) * 4096 + (j 1).val % 4096) * 4096 + (j 2).val % 4096
    = ((j 0).val * 4096 + (j 1).val) * 4096 + (j 2).val
  omega

/-- The rows padded: row r of the 4127 is row r mod 4096 of the image (the first 31 rows come again below the last). -/
private theorem rows_apply (x : S1x3x4096x4096.Idx → α) (h : S1x3x4096x4096.ShapeCasts S3x4096x4096)
    (hs : S3x4096x4096.Slices ![0, 0, 0] S3x31x4096) (hc : Shape.Concatenates [S3x4096x4096, S3x31x4096] S3x4127x4096 1)
    (j : S3x4127x4096.Idx) :
    concatenate S3x4127x4096 1 [⟨S3x4096x4096, shapeCast S3x4096x4096 x h⟩,
        ⟨S3x31x4096, extractStridedSlice S3x31x4096 ![0, 0, 0] (shapeCast S3x4096x4096 x h) hs⟩] hc j
      = x (Cert.Patch.imgIdx (j 0).val (j 1).val (j 2).val) := by
  have b0 : (j 0).val < 3 := (j 0).isLt
  have b1 : (j 1).val < 4127 := (j 1).isLt
  have b2 : (j 2).val < 4096 := (j 2).isLt
  by_cases hlt : (j 1).val < 4096
  · refine (concatenate_pair_apply_left (t := S3x4127x4096) (s₁ := S3x4096x4096) (s₂ := S3x31x4096) (1 : Fin 3) _ _ hc j rfl
      (ix3 (⟨(j 0).val, b0⟩ : Fin 3) (⟨(j 1).val, hlt⟩ : Fin 4096) (⟨(j 2).val, b2⟩ : Fin 4096))
      (forall_fin3 rfl rfl rfl)).trans ?_
    exact flat_apply x h _
  · have hr : (j 1).val - 4096 < 31 := by omega
    have hr' : (j 1).val - 4096 < 4096 := by omega
    refine (concatenate_pair_apply_right (t := S3x4127x4096) (s₁ := S3x4096x4096) (s₂ := S3x31x4096) (1 : Fin 3) _ _ hc j rfl rfl
      (ix3 (⟨(j 0).val, b0⟩ : Fin 3) (⟨(j 1).val - 4096, hr⟩ : Fin 31) (⟨(j 2).val, b2⟩ : Fin 4096))
      (forall_fin3 (fun _ => rfl) (fun hb => absurd rfl hb) (fun _ => rfl))
      (by show (j 1).val - 4096 + 4096 = (j 1).val; omega)).trans ?_
    refine (extractStridedSlice_apply (s := S3x4096x4096) (t := S3x31x4096) ![0, 0, 0] (shapeCast S3x4096x4096 x h) hs
      (ix3 (⟨(j 0).val, b0⟩ : Fin 3) (⟨(j 1).val - 4096, hr⟩ : Fin 31) (⟨(j 2).val, b2⟩ : Fin 4096))
      (ix3 (⟨(j 0).val, b0⟩ : Fin 3) (⟨(j 1).val - 4096, hr'⟩ : Fin 4096) (⟨(j 2).val, b2⟩ : Fin 4096))
      (forall_fin3 (by show (j 0).val = 0 + (j 0).val; omega) (by show (j 1).val - 4096 = 0 + ((j 1).val - 4096); omega)
        (by show (j 2).val = 0 + (j 2).val; omega))).trans ?_
    refine (flat_apply x h _).trans (congrArg x ?_)
    refine Cert.Patch.imgIdx_eq _ _ _ _ rfl ?_ rfl
    show ((j 1).val - 4096) % 4096 = (j 1).val % 4096
    omega
end Pad

section Pad2
variable {α : Type}

/-- The image with 31 rows appended: its first 31 rows again. -/
private abbrev rowsPad (x : S1x3x4096x4096.Idx → α) (h : S1x3x4096x4096.ShapeCasts S3x4096x4096)
    (hs : S3x4096x4096.Slices ![0, 0, 0] S3x31x4096) (hc : Shape.Concatenates [S3x4096x4096, S3x31x4096] S3x4127x4096 1) :
    S3x4127x4096.Idx → α :=
  concatenate S3x4127x4096 1 [⟨S3x4096x4096, shapeCast S3x4096x4096 x h⟩,
    ⟨S3x31x4096, extractStridedSlice S3x31x4096 ![0, 0, 0] (shapeCast S3x4096x4096 x h) hs⟩] hc

/-- The padded image: then 31 columns appended, the first 31 again. -/
private abbrev padded (x : S1x3x4096x4096.Idx → α) (h : S1x3x4096x4096.ShapeCasts S3x4096x4096)
    (hs : S3x4096x4096.Slices ![0, 0, 0] S3x31x4096) (hc : Shape.Concatenates [S3x4096x4096, S3x31x4096] S3x4127x4096 1)
    (hs2 : S3x4127x4096.Slices ![0, 0, 0] S3x4127x31) (hc2 : Shape.Concatenates [S3x4127x4096, S3x4127x31] S3x4127x4127 2) :
    S3x4127x4127.Idx → α :=
  concatenate S3x4127x4127 2 [⟨S3x4127x4096, rowsPad x h hs hc⟩,
    ⟨S3x4127x31, extractStridedSlice S3x4127x31 ![0, 0, 0] (rowsPad x h hs hc) hs2⟩] hc2

/-- The padded image at (ch, r, l) is the image at channel ch, row r mod 4096, column l mod 4096. -/
private theorem padded_apply (x : S1x3x4096x4096.Idx → α) (h : S1x3x4096x4096.ShapeCasts S3x4096x4096)
    (hs : S3x4096x4096.Slices ![0, 0, 0] S3x31x4096) (hc : Shape.Concatenates [S3x4096x4096, S3x31x4096] S3x4127x4096 1)
    (hs2 : S3x4127x4096.Slices ![0, 0, 0] S3x4127x31) (hc2 : Shape.Concatenates [S3x4127x4096, S3x4127x31] S3x4127x4127 2)
    (k : S3x4127x4127.Idx) :
    padded x h hs hc hs2 hc2 k = x (Cert.Patch.imgIdx (k 0).val (k 1).val (k 2).val) := by
  have b0 : (k 0).val < 3 := (k 0).isLt
  have b1 : (k 1).val < 4127 := (k 1).isLt
  have b2 : (k 2).val < 4127 := (k 2).isLt
  by_cases hlt : (k 2).val < 4096
  · refine (concatenate_pair_apply_left (t := S3x4127x4127) (s₁ := S3x4127x4096) (s₂ := S3x4127x31) (2 : Fin 3) _ _ hc2 k rfl
      (ix3 (⟨(k 0).val, b0⟩ : Fin 3) (⟨(k 1).val, b1⟩ : Fin 4127) (⟨(k 2).val, hlt⟩ : Fin 4096))
      (forall_fin3 rfl rfl rfl)).trans ?_
    exact rows_apply x h hs hc _
  · have hr : (k 2).val - 4096 < 31 := by omega
    have hr' : (k 2).val - 4096 < 4096 := by omega
    refine (concatenate_pair_apply_right (t := S3x4127x4127) (s₁ := S3x4127x4096) (s₂ := S3x4127x31) (2 : Fin 3) _ _ hc2 k rfl rfl
      (ix3 (⟨(k 0).val, b0⟩ : Fin 3) (⟨(k 1).val, b1⟩ : Fin 4127) (⟨(k 2).val - 4096, hr⟩ : Fin 31))
      (forall_fin3 (fun _ => rfl) (fun _ => rfl) (fun hb => absurd rfl hb))
      (by show (k 2).val - 4096 + 4096 = (k 2).val; omega)).trans ?_
    refine (extractStridedSlice_apply (s := S3x4127x4096) (t := S3x4127x31) ![0, 0, 0] (rowsPad x h hs hc) hs2
      (ix3 (⟨(k 0).val, b0⟩ : Fin 3) (⟨(k 1).val, b1⟩ : Fin 4127) (⟨(k 2).val - 4096, hr⟩ : Fin 31))
      (ix3 (⟨(k 0).val, b0⟩ : Fin 3) (⟨(k 1).val, b1⟩ : Fin 4127) (⟨(k 2).val - 4096, hr'⟩ : Fin 4096))
      (forall_fin3 (by show (k 0).val = 0 + (k 0).val; omega) (by show (k 1).val = 0 + (k 1).val; omega)
        (by show (k 2).val - 4096 = 0 + ((k 2).val - 4096); omega))).trans ?_
    refine (rows_apply x h hs hc _).trans (congrArg x ?_)
    refine Cert.Patch.imgIdx_eq _ _ _ _ rfl rfl ?_
    show ((k 2).val - 4096) % 4096 = (k 2).val % 4096
    omega
end Pad2

section PadV
variable {F : FTy → Type} [FloatOps F]
variable (m : (ℓ : Loc nD τ sig) → Buf (Elt F) ℓ)
open Idealize.ShloMosaic.StableHlo

/-- What the kernel's operand holds when the region is entered: the padded image. -/
private theorem V_padded (c : Dev nD) : (V m c main_v4 : S3x4127x4127.Idx → Elt F .f32)
    = padded (m ((c.tc : Thread nD τ).loc main_arg0)) shapeCasts_S1x3x4096x4096_S3x4096x4096
        slices_S3x4096x4096_S3x31x4096_0_0_0 concatenates_S3x4096x4096_S3x31x4096_S3x4127x4096_d1
        slices_S3x4127x4096_S3x4127x31_0_0_0 concatenates_S3x4127x4096_S3x4127x31_S3x4127x4127_d2 := by
  dsimp only [Gen.V, Gen.hostOps0]
  after_results
  rfl
end PadV

section Piece
variable {F : FTy → Type} [FloatOps F]

private theorem hz4 : (![0, 0, 0, 0] : Fin 4 → Nat) = fun _ => 0 := funext fun a => by fin_cases a <;> rfl
private theorem hz3 : (![0, 0, 0] : Fin 3 → Nat) = fun _ => 0 := funext fun a => by fin_cases a <;> rfl

/-- A load through the whole-shape rectangle at zero offsets of what one store through the whole rectangle left reads
    that store's payload. -/
private theorem readCov_whole_zero {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) :
    v.readCov [(⟨Rect.whole S, w⟩ : View.Piece Val S e)] (Rect.unit off S.size inb).toLoadRect = w := by
  subst h
  exact View.readCov_unit_zero v rfl _ w

/-- The word of a table the body reads at a grid point. -/
private abbrev word (c : Dev nD) (i : grid0.Coords) {M : Memref sig .tc .smem S512 .i32} (xt : TbBuf0 (F := F) c M) : Elt F .i32 :=
  M.view.readAt (Elt F) (Rect.unit (s := S512) (k0_off1 i) S1.size (k0_off1_inb i)).toLoadRect xt (Shape.Idx.first (numel1_S1.symm ▸ Nat.one_pos))

/-- What the body leaves in its output block at entry (0, ch, r, l): the padded image at channel ch, row (row origin) + r,
    column (column origin) + l, the origins being the two words read. -/
private theorem piece_apply (c : Dev nD) (i : grid0.Coords) (arg5 : Memref sig .tc .vmem S1x3x32x32 .f32) (harg5 : arg5.IsWhole) (arg6 : Memref sig .tc .vmem S3x32x32 .f32) (harg6 : arg6.IsWhole)
    (xt0 : TbBuf0 (F := F) c tbM0_0) (xt1 : TbBuf0 (F := F) c tbM0_1) (fh0 : HbBuf0 (F := F) c hbM0_0) (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos))))
    (y : S1x3x32x32.Idx) (k : S3x4127x4127.Idx) (h0 : (k 0).val = (y 1).val)
    (h1 : (k 1).val = (word c i xt0).toNat + (y 2).val) (h2 : (k 2).val = (word c i xt1).toNat + (y 3).val) :
    out0_A_0 c i arg5 harg5 arg6 harg6 xt0 xt1 fh0 k0_hw1 y = fh0 k := by
  unfold out0_A_0
  rw [View.read_writes_eq_canon _ _ _ (cover0_A_0 c i arg5 harg5 arg6 harg6 xt0 xt1 fh0 k0_hw1)]
  unfold kernelRun0_A
  dsimp only
  sl_unfold_words
  rw [View.canon_unit_zero hz4]
  unfold k0_pay1
  rw [readCov_whole_zero _ hz3]
  have hy0 : (y 0).val = 0 := by have := (y 0).isLt; have e : S1x3x32x32.size 0 = 1 := rfl; omega
  refine (shapeCast_apply _ shapeCasts_S3x32x32_S1x3x32x32 y (ix3 (y 1) (y 2) (y 3)) ?_).trans ?_
  · rw [Shape.rowMajor_val_three, Shape.rowMajor_val_four]
    show ((y 1).val * 32 + (y 2).val) * 32 + (y 3).val = (((y 0).val * 3 + (y 1).val) * 32 + (y 2).val) * 32 + (y 3).val
    omega
  · show fh0 _ = fh0 k
    refine congrArg fh0 ?_
    funext a
    apply Fin.ext
    match a with
    | ⟨0, _⟩ => show 0 + 1 * (y 1).val = (k 0).val; omega
    | ⟨1, _⟩ => show (word c i xt0).toNat + 1 * (y 2).val = (k 1).val; omega
    | ⟨2, _⟩ => show (word c i xt1).toNat + 1 * (y 3).val = (k 2).val; omega
end Piece

section Blocks
variable {F : FTy → Type} [FloatOps F]

/-- The grid's points in order: point t has coordinates (t / 2, t mod 2); its output block has index (t / 2, t mod 2, 0, 0)
    and the table entry it reads is entry t. -/
private theorem point_facts : ∀ t : Fin grid0.N,
    cc0_transform_1 (grid0.coords t) 0 = t.val / 2 ∧ cc0_transform_1 (grid0.coords t) 1 = t.val % 2
    ∧ cc0_transform_1 (grid0.coords t) 2 = 0 ∧ cc0_transform_1 (grid0.coords t) 3 = 0
    ∧ k0_off1 (grid0.coords t) 0 = t.val := by decide +kernel

/-- The side condition assumed of the two words: the 32 x 32 window at the origin they name fits the padded image. -/
private theorem chk_bounds (v3 v5 : BitVec 32) (h : k0_chk1 v3 v5) : v3.toNat + 32 ≤ 4127 ∧ v5.toNat + 32 ≤ 4127 := ⟨h 1, h 2⟩

/-- The word the body reads of the row-origin table at point t is its entry t. -/
private theorem word0_eq (c : Dev nD) (t : Fin grid0.N) (xt : TbBuf0 (F := F) c tbM0_0) :
    word c (grid0.coords t) xt = xt (Cert.Patch.tabIdx t.val) := by
  obtain ⟨-, -, -, -, e⟩ := point_facts t
  have hN : t.val < 512 := Nat.lt_of_lt_of_eq t.isLt N_0
  refine congrArg xt ?_
  funext a
  apply Fin.ext
  match a with
  | ⟨0, _⟩ =>
    show k0_off1 (grid0.coords t) 0 + 1 * (Shape.Idx.first (s := S1) (numel1_S1.symm ▸ Nat.one_pos) (0 : Fin 1)).val = t.val % 512
    have h1 : (Shape.Idx.first (s := S1) (numel1_S1.symm ▸ Nat.one_pos) (0 : Fin 1)).val < 1 :=
      (Shape.Idx.first (s := S1) (numel1_S1.symm ▸ Nat.one_pos) (0 : Fin 1)).isLt
    omega

/-- and of the column-origin table, its entry t. -/
private theorem word1_eq (c : Dev nD) (t : Fin grid0.N) (xt : TbBuf0 (F := F) c tbM0_1) :
    word c (grid0.coords t) xt = xt (Cert.Patch.tabIdx t.val) := by
  obtain ⟨-, -, -, -, e⟩ := point_facts t
  have hN : t.val < 512 := Nat.lt_of_lt_of_eq t.isLt N_0
  refine congrArg xt ?_
  funext a
  apply Fin.ext
  match a with
  | ⟨0, _⟩ =>
    show k0_off1 (grid0.coords t) 0 + 1 * (Shape.Idx.first (s := S1) (numel1_S1.symm ▸ Nat.one_pos) (0 : Fin 1)).val = t.val % 512
    have h1 : (Shape.Idx.first (s := S1) (numel1_S1.symm ▸ Nat.one_pos) (0 : Fin 1)).val < 1 :=
      (Shape.Idx.first (s := S1) (numel1_S1.symm ▸ Nat.one_pos) (0 : Fin 1)).isLt
    omega

variable (m : (ℓ : Loc nD τ sig) → Buf (Elt F) ℓ)

private theorem tbl0_eq : tbl m 0 = m (((0 : Dev nD).tc : Thread nD τ).loc main_arg1) := V_main_arg1 m 0
private theorem tbl1_eq : tbl m 1 = m (((0 : Dev nD).tc : Thread nD τ).loc main_arg2) := V_main_arg2 m 0

end Blocks

section Point
variable {α : Type}
open Cert.Patch

/-- One grid point, in pure terms: a block `B` that reads the padded array `P` at channel (its axis 1), row w0 + (its axis 2),
    column w1 + (its axis 3), where w0, w1 are entry n of the origin tables, is the block of the torus gather at block
    index (n / 2, n mod 2, 0, 0) of sizes (1, 3, 32, 32): entry (0, ch, r, l) of it is output entry (n / 2, 3 (n mod 2) + ch, r, l),
    of patch 2 (n / 2) + (n mod 2) = n and channel ch; the window fits the padded array, so the wrap is the padding's. -/
private theorem point_value (x : S1x3x4096x4096.Idx → α) (ys xs : S512.Idx → BitVec 32)
    (P : S3x4127x4127.Idx → α) (hP : ∀ k, P k = x (imgIdx (k 0).val (k 1).val (k 2).val))
    (B : S1x3x32x32.Idx → α) (w0 w1 : BitVec 32)
    (hB : ∀ (y : S1x3x32x32.Idx) (k : S3x4127x4127.Idx), (k 0).val = (y 1).val → (k 1).val = w0.toNat + (y 2).val →
      (k 2).val = w1.toNat + (y 3).val → B y = P k)
    (hw : w0.toNat + 32 ≤ 4127 ∧ w1.toNat + 32 ≤ 4127)
    (n : Nat) (h0 : w0 = ys (tabIdx n)) (h1 : w1 = xs (tabIdx n))
    (y : S1x3x32x32.Idx) (j : S256x6x32x32.Idx)
    (hj0 : (j 0).val = n / 2 * 1 + (y 0).val) (hj1 : (j 1).val = n % 2 * 3 + (y 1).val)
    (hj2 : (j 2).val = 0 * 32 + (y 2).val) (hj3 : (j 3).val = 0 * 32 + (y 3).val) :
    B y = G x ys xs j := by
  have y0 : (y 0).val < 1 := (y 0).isLt
  have y1 : (y 1).val < 3 := (y 1).isLt
  have y2 : (y 2).val < 32 := (y 2).isLt
  have y3 : (y 3).val < 32 := (y 3).isLt
  have hp : patchOf (j 0).val (j 1).val = n := by show 2 * (j 0).val + (j 1).val / 3 = n; omega
  refine (hB y (ix3 (⟨(y 1).val, y1⟩ : Fin 3) (⟨w0.toNat + (y 2).val, by omega⟩ : Fin 4127)
    (⟨w1.toNat + (y 3).val, by omega⟩ : Fin 4127)) rfl rfl rfl).trans ?_
  refine (hP _).trans ?_
  show _ = x (imgIdx (j 1).val ((ys (tabIdx (patchOf (j 0).val (j 1).val))).toNat + (j 2).val)
    ((xs (tabIdx (patchOf (j 0).val (j 1).val))).toNat + (j 3).val))
  rw [hp, ← h0, ← h1]
  refine congrArg x (imgIdx_eq _ _ _ _ ?_ ?_ ?_)
  · show (y 1).val % 3 = (j 1).val % 3
    omega
  · show (w0.toNat + (y 2).val) % 4096 = (w0.toNat + (j 2).val) % 4096
    rw [hj2, Nat.zero_mul, Nat.zero_add]
  · show (w1.toNat + (y 3).val) % 4096 = (w1.toNat + (j 3).val) % 4096
    rw [hj3, Nat.zero_mul, Nat.zero_add]
end Point

section Cover
variable {F : FTy → Type} [FloatOps F]

/-- An element of the block at a point sits, on each axis, at the block index times the block's size plus its own coordinate. -/
private theorem emb_val (a : (pcfg0 (F := F)).Adm) (t : Fin (cfg0 a).N) (y : (((cfg0 a).win 0).xblock (grid0.coords t)).Idx) (ax : Fin 4) :
    ((((cfg0 a).win 0).blk t).view.emb y ax).val = cc0_transform_1 (grid0.coords t) ax * S1x3x32x32.size ax + (y ax).val := by
  show cc0_transform_1 (grid0.coords t) ax * S1x3x32x32.size ax + 1 * (y ax).val = _
  omega

/-- Output entry (b, q, r, l) lies in the block of the point 2 b + q / 3, and every point writes its block back. -/
private theorem cover (a : (pcfg0 (F := F)).Adm) (i : S256x6x32x32.Idx) :
    ∃ t : Fin (cfg0 a).N, ((cfg0 a).win 0).flush t = true ∧ i ∈ (((cfg0 a).win 0).blk t).view.set := by
  have b0 : (i 0).val < 256 := (i 0).isLt
  have b1 : (i 1).val < 6 := (i 1).isLt
  have b2 : (i 2).val < 32 := (i 2).isLt
  have b3 : (i 3).val < 32 := (i 3).isLt
  have hN : (cfg0 a).N = 512 := N_0
  obtain ⟨t, ht⟩ : ∃ t : Fin (cfg0 a).N, t.val = 2 * (i 0).val + (i 1).val / 3 :=
    ⟨⟨2 * (i 0).val + (i 1).val / 3, by rw [hN]; omega⟩, rfl⟩
  refine ⟨t, flush0_0 a t, ?_⟩
  have hs : (((cfg0 a).win 0).blk t).view.set = (((cfg0 a).win 0).rect t).set := View.set_slice_whole main_v5 _
  rw [hs]
  refine Rect.mem_set_unit.mpr ?_
  obtain ⟨e0, e1, e2, e3, -⟩ := point_facts t
  refine forall_fin4 ?_ ?_ ?_ ?_
  · show cc0_transform_1 (grid0.coords t) 0 * 1 ≤ (i 0).val ∧ (i 0).val < cc0_transform_1 (grid0.coords t) 0 * 1 + 1
    rw [e0]; omega
  · show cc0_transform_1 (grid0.coords t) 1 * 3 ≤ (i 1).val ∧ (i 1).val < cc0_transform_1 (grid0.coords t) 1 * 3 + 3
    rw [e1]; omega
  · show cc0_transform_1 (grid0.coords t) 2 * 32 ≤ (i 2).val ∧ (i 2).val < cc0_transform_1 (grid0.coords t) 2 * 32 + 32
    rw [e2]; omega
  · show cc0_transform_1 (grid0.coords t) 3 * 32 ≤ (i 3).val ∧ (i 3).val < cc0_transform_1 (grid0.coords t) 3 * 32 + 32
    rw [e3]; omega
end Cover

variable (m : (ℓ : Loc nD τ sig) → Buf (Elt Ideal) ℓ) (ρ : Dev nD → PrngReg)

/-- What point t writes back is block t of the torus gather of the arguments. -/
private theorem flushed_eq (hO : Ok m) (hH : Hyps m hO) (t : Fin (cfgM m hO).N) :
    (dats m hO hH 0 (0 : Dev nD)).flushed 0 t
      = (((cfgM m hO).win 0).blk t).view.read (Elt Ideal)
          (Cert.Patch.G (m (((0 : Dev nD).tc : Thread nD τ).loc main_arg0)) (m (((0 : Dev nD).tc : Thread nD τ).loc main_arg1))
            (m (((0 : Dev nD).tc : Thread nD τ).loc main_arg2))) := by
  show ((cfgM m hO).win 0).cut (grid0.coords t) ((dats m hO hH 0 0).after 0 t) = _
  rw [after0_0]
  unfold outsAt0
  funext y
  obtain ⟨e0, e1, e2, e3, -⟩ := point_facts t
  exact point_value (m (((0 : Dev nD).tc : Thread nD τ).loc main_arg0)) (m (((0 : Dev nD).tc : Thread nD τ).loc main_arg1))
    (m (((0 : Dev nD).tc : Thread nD τ).loc main_arg2)) (V m 0 main_v4)
    (fun k => (congrFun (V_padded m 0) k).trans (padded_apply _ _ _ _ _ _ k))
    (out0_A_0 (F := Ideal) 0 (grid0.coords t) (ms0_0 m hO t) (hs0_0 m hO t) scM0_0 (Memref.isWhole_whole _) (tbl m 0) (tbl m 1)
      (V m 0 main_v4) (Hyps.c0 hH 0 t))
    (word (M := tbM0_0) 0 (grid0.coords t) (tbl m 0)) (word (M := tbM0_1) 0 (grid0.coords t) (tbl m 1))
    (fun y k a b c => piece_apply (F := Ideal) 0 (grid0.coords t) (ms0_0 m hO t) (hs0_0 m hO t) scM0_0 (Memref.isWhole_whole _)
      (tbl m 0) (tbl m 1) (V m 0 main_v4) (Hyps.c0 hH 0 t) y k a b c)
    (chk_bounds _ _ (Hyps.c0 hH 0 t)) t.val
    ((word0_eq 0 t (tbl m 0)).trans (congrFun (tbl0_eq m) _))
    ((word1_eq 0 t (tbl m 1)).trans (congrFun (tbl1_eq m) _))
    (((cfgM m hO).win 0).xinj (grid0.coords t) y) ((((cfgM m hO).win 0).blk t).view.emb y)
    ((emb_val (adm m hO) t y 0).trans (by rw [e0]; rfl)) ((emb_val (adm m hO) t y 1).trans (by rw [e1]; rfl))
    ((emb_val (adm m hO) t y 2).trans (by rw [e2]; rfl)) ((emb_val (adm m hO) t y 3).trans (by rw [e3]; rfl))

/-- So the result array ends at the torus gather: the 512 blocks tile it. -/
private theorem final (hO : Ok m) (hH : Hyps m hO) :
    (dats m hO hH 0 (0 : Dev nD)).arrAt 0 (cfgM m hO).N
      = Cert.Patch.G (m (((0 : Dev nD).tc : Thread nD τ).loc main_arg0)) (m (((0 : Dev nD).tc : Thread nD τ).loc main_arg1))
          (m (((0 : Dev nD).tc : Thread nD τ).loc main_arg2)) :=
  (dats m hO hH 0 0).arrAt_eq_of_cover 0 _ (fun t _ => flushed_eq m hO hH t) (fun i => cover (adm m hO) i)

/-- The run, read: the result array ends at the torus gather of the arguments, the arguments unchanged. -/
theorem run (hO : Ok m) (hH : Hyps m hO) :
    θ_run (defs (F := Ideal)) (onTc (τ := τ) (main (F := Ideal))) ⟨m, fun _ => 0, ρ⟩ fun r => ∀ c : Dev nD,
      r.2.mem ((c.tc : Thread nD τ).loc main_v5)
          = Cert.Patch.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain rfl : c = 0 := Subsingleton.elim _ _
    exact ⟨((h 0).1 0).trans (final m hO hH),
      ((h 0).2 main_arg0 (by decide : main_arg0 ∈ Pipeline.restRefs sig spec0)).trans (V_main_arg0 m 0),
      ((h 0).2 main_arg1 (by decide : main_arg1 ∈ Pipeline.restRefs sig spec0)).trans (V_main_arg1 m 0),
      ((h 0).2 main_arg2 (by decide : main_arg2 ∈ Pipeline.restRefs sig spec0)).trans (V_main_arg2 m 0)⟩)
    (run_main m ρ hO hH)

end Cert.KernelIdeal.PatchValue

end
-- ==== Proof.RefTerm.lean ====
/-
  The reference's @main as one pure term of its arguments: the row and column index grids
  (origin + offset, reduced modulo 4096 by jnp's remainder, then jnp's negative-index wrap), their pairing,
  the gather out of the image, the transpose and the final reshape — each line one operation of the program.
-/
import proofs.«417583_j26929444946676_1_alg».proof.ReferenceIdeal
import proofs.«417583_j26929444946676_1_alg».proof.Proof.Gen.ReferenceIdeal

noncomputable section

namespace Cert.ReferenceIdeal.PatchValue

open Cert.ReferenceIdeal Cert.ReferenceIdeal.Facts₀
open Idealize.ShloMosaic

/-- jnp's `remainder x d` on a [512, 32] grid of words by a scalar word `d`, as the program computes it:
    a zero divisor is replaced by one, the truncating remainder is taken, and where it is non-zero with the
    sign opposite to the divisor's the divisor is added (so the result has the divisor's sign). -/
def remTerm (x : IVec S512x32 32) (d : IVec S_ 32) : IVec S512x32 32 :=
  let v0 : IVec S_ 32 := id d
  let c : IVec S_ 32 := constantI S_ 32 0#32
  let v1 : IVec S_ 1 := cmpi .eq v0 c
  let c_0 : IVec S_ 32 := constantI S_ 32 1#32
  let v2 : IVec S_ 32 := select v1 c_0 v0
  let v3 : IVec S512x32 32 := broadcastInDim S512x32 ![] bcast_S_S512x32 v2
  let v4 : IVec S512x32 32 := Host.remsi x v3
  let c_1 : IVec S_ 32 := constantI S_ 32 0#32
  let v5 : IVec S512x32 32 := broadcastInDim S512x32 ![] bcast_S_S512x32 c_1
  let v6 : IVec S512x32 1 := cmpi .ne v4 v5
  let c_2 : IVec S_ 32 := constantI S_ 32 0#32
  let v7 : IVec S512x32 32 := broadcastInDim S512x32 ![] bcast_S_S512x32 c_2
  let v8 : IVec S512x32 1 := cmpi .slt v4 v7
  let c_3 : IVec S_ 32 := constantI S_ 32 0#32
  let v9 : IVec S_ 1 := cmpi .slt v2 c_3
  let v10 : IVec S512x32 1 := broadcastInDim S512x32 ![] bcast_S_S512x32 v9
  let v11 : IVec S512x32 1 := cmpi .ne v8 v10
  let v12 : IVec S512x32 1 := andi v11 v6
  let v13 : IVec S512x32 32 := broadcastInDim S512x32 ![] bcast_S_S512x32 v2
  let v14 : IVec S512x32 32 := addi v4 v13
  select v12 v14 v4

/-- The grid (origin[n] + k) mod 4096 over n < 512, k < 32, as the program computes it from a table of origins. -/
def gridTerm (o : IVec S512 32) : IVec S512x32 32 :=
  let v0 : IVec S512x1 32 := broadcastInDim S512x1 ![0] bcast_S512_S512x1_0 o
  let v1 : IVec S32 32 := iotaInDim S32 32 0
  let v2 : IVec S1x32 32 := broadcastInDim S1x32 ![1] bcast_S32_S1x32_1 v1
  let v3 : IVec S512x32 32 := broadcastInDim S512x32 ![0, 1] bcast_S512x1_S512x32_0_1 v0
  let v4 : IVec S512x32 32 := broadcastInDim S512x32 ![0, 1] bcast_S1x32_S512x32_0_1 v2
  let v5 : IVec S512x32 32 := addi v3 v4
  let c : IVec S_ 32 := constantI S_ 32 4096#32
  remTerm v5 c

/-- The start indices of the gather: at (n, i, j) the pair (row grid at (n, i), column grid at (n, j)), each first
    wrapped by 4096 where negative. -/
def startsTerm (ys xs : IVec S512 32) : IVec S512x32x32x2 32 :=
  let v6 : IVec S512x32 32 := gridTerm ys
  let v13 : IVec S512x32 32 := gridTerm xs
  let v15 : IVec S512x32x1 32 := broadcastInDim S512x32x1 ![0, 1] bcast_S512x32_S512x32x1_0_1 v6
  let v16 : IVec S512x1x32 32 := broadcastInDim S512x1x32 ![0, 2] bcast_S512x32_S512x1x32_0_2 v13
  let c_1 : IVec S_ 32 := constantI S_ 32 0#32
  let v17 : IVec S512x32x1 32 := broadcastInDim S512x32x1 ![] bcast_S_S512x32x1 c_1
  let v18 : IVec S512x32x1 1 := cmpi .slt v15 v17
  let c_2 : IVec S_ 32 := constantI S_ 32 4096#32
  let v19 : IVec S512x32x1 32 := broadcastInDim S512x32x1 ![] bcast_S_S512x32x1 c_2
  let v20 : IVec S512x32x1 32 := addi v15 v19
  let v21 : IVec S512x32x1 32 := select v18 v20 v15
  let c_3 : IVec S_ 32 := constantI S_ 32 0#32
  let v22 : IVec S512x1x32 32 := broadcastInDim S512x1x32 ![] bcast_S_S512x1x32 c_3
  let v23 : IVec S512x1x32 1 := cmpi .slt v16 v22
  let c_4 : IVec S_ 32 := constantI S_ 32 4096#32
  let v24 : IVec S512x1x32 32 := broadcastInDim S512x1x32 ![] bcast_S_S512x1x32 c_4
  let v25 : IVec S512x1x32 32 := addi v16 v24
  let v26 : IVec S512x1x32 32 := select v23 v25 v16
  let v27 : IVec S512x32x32 32 := broadcastInDim S512x32x32 ![0, 1, 2] bcast_S512x32x1_S512x32x32_0_1_2 v21
  let v28 : IVec S512x32x32 32 := broadcastInDim S512x32x32 ![0, 1, 2] bcast_S512x1x32_S512x32x32_0_1_2 v26
  let v29 : IVec S512x32x32x1 32 := broadcastInDim S512x32x32x1 ![0, 1, 2] bcast_S512x32x32_S512x32x32x1_0_1_2 v27
  let v30 : IVec S512x32x32x1 32 := broadcastInDim S512x32x32x1 ![0, 1, 2] bcast_S512x32x32_S512x32x32x1_0_1_2 v28
  concatenate S512x32x32x2 3 [⟨S512x32x32x1, v29⟩, ⟨S512x32x32x1, v30⟩] concatenates_S512x32x32x1_S512x32x32x1_S512x32x32x2_d3

/-- The reference's result as a function of its three arguments. -/
def refTerm {α : Type} (img : S1x3x4096x4096.Idx → α) (ys xs : IVec S512 32) : S256x6x32x32.Idx → α :=
  let v14 : S3x4096x4096.Idx → α := shapeCast S3x4096x4096 img shapeCasts_S1x3x4096x4096_S3x4096x4096
  let v31 : IVec S512x32x32x2 32 := startsTerm ys xs
  let v32 : S3x512x32x32.Idx → α := Host.gather gather_S3x4096x4096_S512x32x32x2_S3x512x32x32_0_12_n_n_12_3_311 v14 v31
  let v33 : S512x3x32x32.Idx → α := transpose S512x3x32x32 [1, 0, 2, 3] v32 transposes_S3x512x32x32_S512x3x32x32_1_0_2_3
  shapeCast S256x6x32x32 v33 shapeCasts_S512x3x32x32_S256x6x32x32

end Cert.ReferenceIdeal.PatchValue

end
-- ==== Proof.RefRun.lean ====
/-
  The reference's run: @main is a straight line of host operations (the two remainder calls inlined), and every
  weakly fair execution ends with the result buffer at the operations' composed term of the arguments.
-/
import proofs.«417583_j26929444946676_1_alg».proof.Defs
import proofs.«417583_j26929444946676_1_alg».proof.Proof.Gen.ReferenceIdeal
import proofs.«417583_j26929444946676_1_alg».proof.Proof.RefTerm
import Idealize.ShloMosaic.Lib.StableHlo.Run

set_option maxRecDepth 16384

noncomputable section

namespace Cert.ReferenceIdeal.PatchValue

section Line

open Cert.ReferenceIdeal Cert.ReferenceIdeal.Facts₀
open Idealize.ShloMosaic Idealize.ShloMosaic.TcCoe Idealize.SL.Sem Idealize.ShloMosaic.StableHlo

variable {F : FTy → Type} [FloatOps F]

/-- Two grids over (n, i, j) joined along a last axis of size two: the first at position 0, the second at 1. -/
def joinPair (a b : IVec S512x32x32x1 32) : IVec S512x32x32x2 32 :=
  concatenate S512x32x32x2 3 [⟨S512x32x32x1, a⟩, ⟨S512x32x32x1, b⟩] concatenates_S512x32x32x1_S512x32x32x1_S512x32x32x2_d3

/-- @main's operations in program order, the two remainder calls written out over their own buffers: seven
    operations building the row grid origin + offset and the divisor 4096, the twenty-one of the remainder
    (the selection of the non-zero divisor among them), the same twenty-eight for the column grid, then the
    twenty-five that wrap, pair, gather, transpose and reshape. -/
abbrev line : List (HloOp τ sig (Elt F)) :=
  [
    StableHlo.unary main_arg1 main_v0 (broadcastInDim S512x1 ![0] bcast_S512_S512x1_0 : (⟨S512, .i32⟩ : BufTy).Contents (Elt F) → (⟨S512x1, .i32⟩ : BufTy).Contents (Elt F)),
    StableHlo.nullary main_v1 (iotaInDim S32 32 0),
    StableHlo.unary main_v1 main_v2 (broadcastInDim S1x32 ![1] bcast_S32_S1x32_1 : (⟨S32, .i32⟩ : BufTy).Contents (Elt F) → (⟨S1x32, .i32⟩ : BufTy).Contents (Elt F)),
    StableHlo.unary main_v0 main_v3 (broadcastInDim S512x32 ![0, 1] bcast_S512x1_S512x32_0_1 : (⟨S512x1, .i32⟩ : BufTy).Contents (Elt F) → (⟨S512x32, .i32⟩ : BufTy).Contents (Elt F)),
    StableHlo.unary main_v2 main_v4 (broadcastInDim S512x32 ![0, 1] bcast_S1x32_S512x32_0_1 : (⟨S1x32, .i32⟩ : BufTy).Contents (Elt F) → (⟨S512x32, .i32⟩ : BufTy).Contents (Elt F)),
    StableHlo.binary main_v3 main_v4 main_v5 (addi : (⟨S512x32, .i32⟩ : BufTy).Contents (Elt F) → (⟨S512x32, .i32⟩ : BufTy).Contents (Elt F) → (⟨S512x32, .i32⟩ : BufTy).Contents (Elt F)),
    StableHlo.nullary main_c (constantI S_ 32 4096#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S512x32 ![] bcast_S_S512x32),
    StableHlo.TRef.binary (.of main_v5 : StableHlo.TRef sig ⟨S512x32, .i32⟩) main_call0.v3 main_call0.v4 Host.remsi,
    StableHlo.TRef.nullary main_call0.c_1 (constantI S_ 32 0#32),
    StableHlo.TRef.unary main_call0.c_1 main_call0.v5 (broadcastInDim S512x32 ![] bcast_S_S512x32),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S512x32 ![] bcast_S_S512x32),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S512x32 ![] bcast_S_S512x32),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S512x32 ![] bcast_S_S512x32),
    StableHlo.TRef.binary main_call0.v4 main_call0.v13 main_call0.v14 addi,
    StableHlo.TRef.ternary main_call0.v12 main_call0.v14 main_call0.v4 main_call0.v15 select,
    StableHlo.unary main_arg2 main_v7 (broadcastInDim S512x1 ![0] bcast_S512_S512x1_0 : (⟨S512, .i32⟩ : BufTy).Contents (Elt F) → (⟨S512x1, .i32⟩ : BufTy).Contents (Elt F)),
    StableHlo.nullary main_v8 (iotaInDim S32 32 0),
    StableHlo.unary main_v8 main_v9 (broadcastInDim S1x32 ![1] bcast_S32_S1x32_1 : (⟨S32, .i32⟩ : BufTy).Contents (Elt F) → (⟨S1x32, .i32⟩ : BufTy).Contents (Elt F)),
    StableHlo.unary main_v7 main_v10 (broadcastInDim S512x32 ![0, 1] bcast_S512x1_S512x32_0_1 : (⟨S512x1, .i32⟩ : BufTy).Contents (Elt F) → (⟨S512x32, .i32⟩ : BufTy).Contents (Elt F)),
    StableHlo.unary main_v9 main_v11 (broadcastInDim S512x32 ![0, 1] bcast_S1x32_S512x32_0_1 : (⟨S1x32, .i32⟩ : BufTy).Contents (Elt F) → (⟨S512x32, .i32⟩ : BufTy).Contents (Elt F)),
    StableHlo.binary main_v10 main_v11 main_v12 (addi : (⟨S512x32, .i32⟩ : BufTy).Contents (Elt F) → (⟨S512x32, .i32⟩ : BufTy).Contents (Elt F) → (⟨S512x32, .i32⟩ : BufTy).Contents (Elt F)),
    StableHlo.nullary main_c_0 (constantI S_ 32 4096#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S512x32 ![] bcast_S_S512x32),
    StableHlo.TRef.binary (.of main_v12 : StableHlo.TRef sig ⟨S512x32, .i32⟩) main_call1.v3 main_call1.v4 Host.remsi,
    StableHlo.TRef.nullary main_call1.c_1 (constantI S_ 32 0#32),
    StableHlo.TRef.unary main_call1.c_1 main_call1.v5 (broadcastInDim S512x32 ![] bcast_S_S512x32),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S512x32 ![] bcast_S_S512x32),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S512x32 ![] bcast_S_S512x32),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S512x32 ![] bcast_S_S512x32),
    StableHlo.TRef.binary main_call1.v4 main_call1.v13 main_call1.v14 addi,
    StableHlo.TRef.ternary main_call1.v12 main_call1.v14 main_call1.v4 main_call1.v15 select,
    StableHlo.reshape main_arg0 main_v14 rfl shapeCasts_S1x3x4096x4096_S3x4096x4096,
    StableHlo.unary main_v6 main_v15 (broadcastInDim S512x32x1 ![0, 1] bcast_S512x32_S512x32x1_0_1 : (⟨S512x32, .i32⟩ : BufTy).Contents (Elt F) → (⟨S512x32x1, .i32⟩ : BufTy).Contents (Elt F)),
    StableHlo.unary main_v13 main_v16 (broadcastInDim S512x1x32 ![0, 2] bcast_S512x32_S512x1x32_0_2 : (⟨S512x32, .i32⟩ : BufTy).Contents (Elt F) → (⟨S512x1x32, .i32⟩ : BufTy).Contents (Elt F)),
    StableHlo.nullary main_c_1 (constantI S_ 32 0#32),
    StableHlo.unary main_c_1 main_v17 (broadcastInDim S512x32x1 ![] bcast_S_S512x32x1 : (⟨S_, .i32⟩ : BufTy).Contents (Elt F) → (⟨S512x32x1, .i32⟩ : BufTy).Contents (Elt F)),
    StableHlo.binary main_v15 main_v17 main_v18 (cmpi .slt : (⟨S512x32x1, .i32⟩ : BufTy).Contents (Elt F) → (⟨S512x32x1, .i32⟩ : BufTy).Contents (Elt F) → (⟨S512x32x1, .i1⟩ : BufTy).Contents (Elt F)),
    StableHlo.nullary main_c_2 (constantI S_ 32 4096#32),
    StableHlo.unary main_c_2 main_v19 (broadcastInDim S512x32x1 ![] bcast_S_S512x32x1 : (⟨S_, .i32⟩ : BufTy).Contents (Elt F) → (⟨S512x32x1, .i32⟩ : BufTy).Contents (Elt F)),
    StableHlo.binary main_v15 main_v19 main_v20 (addi : (⟨S512x32x1, .i32⟩ : BufTy).Contents (Elt F) → (⟨S512x32x1, .i32⟩ : BufTy).Contents (Elt F) → (⟨S512x32x1, .i32⟩ : BufTy).Contents (Elt F)),
    StableHlo.ternary main_v18 main_v20 main_v15 main_v21 (select : (⟨S512x32x1, .i1⟩ : BufTy).Contents (Elt F) → (⟨S512x32x1, .i32⟩ : BufTy).Contents (Elt F) → (⟨S512x32x1, .i32⟩ : BufTy).Contents (Elt F) → (⟨S512x32x1, .i32⟩ : BufTy).Contents (Elt F)),
    StableHlo.nullary main_c_3 (constantI S_ 32 0#32),
    StableHlo.unary main_c_3 main_v22 (broadcastInDim S512x1x32 ![] bcast_S_S512x1x32 : (⟨S_, .i32⟩ : BufTy).Contents (Elt F) → (⟨S512x1x32, .i32⟩ : BufTy).Contents (Elt F)),
    StableHlo.binary main_v16 main_v22 main_v23 (cmpi .slt : (⟨S512x1x32, .i32⟩ : BufTy).Contents (Elt F) → (⟨S512x1x32, .i32⟩ : BufTy).Contents (Elt F) → (⟨S512x1x32, .i1⟩ : BufTy).Contents (Elt F)),
    StableHlo.nullary main_c_4 (constantI S_ 32 4096#32),
    StableHlo.unary main_c_4 main_v24 (broadcastInDim S512x1x32 ![] bcast_S_S512x1x32 : (⟨S_, .i32⟩ : BufTy).Contents (Elt F) → (⟨S512x1x32, .i32⟩ : BufTy).Contents (Elt F)),
    StableHlo.binary main_v16 main_v24 main_v25 (addi : (⟨S512x1x32, .i32⟩ : BufTy).Contents (Elt F) → (⟨S512x1x32, .i32⟩ : BufTy).Contents (Elt F) → (⟨S512x1x32, .i32⟩ : BufTy).Contents (Elt F)),
    StableHlo.ternary main_v23 main_v25 main_v16 main_v26 (select : (⟨S512x1x32, .i1⟩ : BufTy).Contents (Elt F) → (⟨S512x1x32, .i32⟩ : BufTy).Contents (Elt F) → (⟨S512x1x32, .i32⟩ : BufTy).Contents (Elt F) → (⟨S512x1x32, .i32⟩ : BufTy).Contents (Elt F)),
    StableHlo.unary main_v21 main_v27 (broadcastInDim S512x32x32 ![0, 1, 2] bcast_S512x32x1_S512x32x32_0_1_2 : (⟨S512x32x1, .i32⟩ : BufTy).Contents (Elt F) → (⟨S512x32x32, .i32⟩ : BufTy).Contents (Elt F)),
    StableHlo.unary main_v26 main_v28 (broadcastInDim S512x32x32 ![0, 1, 2] bcast_S512x1x32_S512x32x32_0_1_2 : (⟨S512x1x32, .i32⟩ : BufTy).Contents (Elt F) → (⟨S512x32x32, .i32⟩ : BufTy).Contents (Elt F)),
    StableHlo.unary main_v27 main_v29 (broadcastInDim S512x32x32x1 ![0, 1, 2] bcast_S512x32x32_S512x32x32x1_0_1_2 : (⟨S512x32x32, .i32⟩ : BufTy).Contents (Elt F) → (⟨S512x32x32x1, .i32⟩ : BufTy).Contents (Elt F)),
    StableHlo.unary main_v28 main_v30 (broadcastInDim S512x32x32x1 ![0, 1, 2] bcast_S512x32x32_S512x32x32x1_0_1_2 : (⟨S512x32x32, .i32⟩ : BufTy).Contents (Elt F) → (⟨S512x32x32x1, .i32⟩ : BufTy).Contents (Elt F)),
    StableHlo.binary main_v29 main_v30 main_v31 (joinPair : (⟨S512x32x32x1, .i32⟩ : BufTy).Contents (Elt F) → (⟨S512x32x32x1, .i32⟩ : BufTy).Contents (Elt F) → (⟨S512x32x32x2, .i32⟩ : BufTy).Contents (Elt F)),
    StableHlo.binary main_v14 main_v31 main_v32 ((fun x i => Host.gather gather_S3x4096x4096_S512x32x32x2_S3x512x32x32_0_12_n_n_12_3_311 x i) : (⟨S3x4096x4096, .f32⟩ : BufTy).Contents (Elt F) → (⟨S512x32x32x2, .i32⟩ : BufTy).Contents (Elt F) → (⟨S3x512x32x32, .f32⟩ : BufTy).Contents (Elt F)),
    StableHlo.unary main_v32 main_v33 ((transpose S512x3x32x32 [1, 0, 2, 3] · transposes_S3x512x32x32_S512x3x32x32_1_0_2_3) : (⟨S3x512x32x32, .f32⟩ : BufTy).Contents (Elt F) → (⟨S512x3x32x32, .f32⟩ : BufTy).Contents (Elt F)),
    StableHlo.reshape main_v33 main_v34 rfl shapeCasts_S512x3x32x32_S256x6x32x32 ]

/-- @main is that line: each call is its function's body at the call's buffers, and sequencing reassociates. -/
theorem main_line (c : Dev nD) : main (F := F) c = seq line := rfl

theorem noScopedRefs : (Finset.univ.filter fun b : Ref sig .tc => b.isScoped) = ∅ := by decide
theorem noScopedSems : (Finset.univ.filter fun sm : SemLoc sig => sm.isScoped .tc) = ∅ := by decide

/-- Every operation of the line touches TensorCore references only. -/
theorem line_sub : (line : List (HloOp τ sig (Elt F))).Forall fun op => op.bufs ⊆ tcRefs τ sig :=
  ⟨
    unary_bufs_sub .., nullary_bufs_sub .., unary_bufs_sub .., unary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., unary_bufs_sub .., nullary_bufs_sub ..,
    unary_bufs_sub .., unary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., reshape_bufs_sub .., unary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., unary_bufs_sub .., binary_bufs_sub ..,
    binary_bufs_sub .., unary_bufs_sub .., reshape_bufs_sub ..⟩

attribute [local irreducible] Host.gather Host.remsi concatenate transpose shapeCast in
set_option maxHeartbeats 800000 in
/-- The fold of the line at the result buffer is `refTerm` of the arguments' contents: each buffer read is
    rewritten to the value of the one operation that writes it, shared reads once, and what is left on both sides is
    the same composition of operations, the typed references' transports being identities. -/
theorem line_out (V : Valuation τ sig (Elt F)) :
    after line V (main_v34 : DevRef τ sig)
      = refTerm (V (main_arg0 : DevRef τ sig)) (V (main_arg1 : DevRef τ sig)) (V (main_arg2 : DevRef τ sig)) := by
  after_results_simp
  rfl

/-- No operation of the line writes an argument's buffer. -/
theorem line_arg0 (V : Valuation τ sig (Elt F)) :
    after line V (main_arg0 : DevRef τ sig) = V (main_arg0 : DevRef τ sig) := by
  after_results_simp

theorem line_arg1 (V : Valuation τ sig (Elt F)) :
    after line V (main_arg1 : DevRef τ sig) = V (main_arg1 : DevRef τ sig) := by
  after_results_simp

theorem line_arg2 (V : Valuation τ sig (Elt F)) :
    after line V (main_arg2 : DevRef τ sig) = V (main_arg2 : DevRef τ sig) := by
  after_results_simp

end Line

open Cert.ReferenceIdeal
open Idealize.ShloMosaic Idealize.ShloMosaic.TcCoe Idealize.SL.Sem

variable (m : (ℓ : Loc nD τ sig) → Buf (Elt Ideal) ℓ) (ρ : Dev nD → PrngReg)

/-- The run: the result buffer ends at `refTerm` of the launch contents of the arguments, which are unchanged. -/
theorem run_term :
    θ_run (defs (F := Ideal)) (onTc (τ := τ) (main (F := Ideal))) ⟨m, fun _ => 0, ρ⟩ fun r => ∀ c : Dev nD,
      r.2.mem ((c.tc : Thread nD τ).loc main_v34)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono
    (fun _ h c => ⟨(h c main_v34).trans (line_out _), (h c main_arg0).trans (line_arg0 _),
      (h c main_arg1).trans (line_arg1 _), (h c main_arg2).trans (line_arg2 _)⟩)
    (StableHlo.run_seq noScopedRefs noScopedSems defs main (fun _ => line) main_line (fun _ => line_sub) m ρ)

end Cert.ReferenceIdeal.PatchValue

end
-- ==== Proof.RefRead.lean ====
/-
  The reference's term read at an index: for origins in [0, 4096) it is the torus gather.

  Output entry (b, q, i, jj) is followed inwards through the term: the final reshape and the transpose lead to entry
  (q mod 3, 2 b + q / 3, i, jj) of the gather; the gather reads the image's channel q mod 3 at the row and column the
  two index words of patch 2 b + q / 3 name, each clamped to [0, 4095]; the words are (origin + offset) mod 4096
  computed in two's complement, and for an origin below 4096 they read as that natural number, which the clamp keeps.
-/
import proofs.«417583_j26929444946676_1_alg».proof.Proof.RefTerm
import proofs.«417583_j26929444946676_1_alg».proof.Proof.Spec
import Idealize.ShloMosaic.Lib.ValueIdx
import Idealize.ShloMosaic.Lib.Pipeline.Value
import Idealize.ShloMosaic.Lib.StableHlo.Predicate

set_option maxRecDepth 16384

noncomputable section

namespace Cert.ReferenceIdeal.PatchValue

open Cert.ReferenceIdeal
open Idealize.ShloMosaic Idealize.ShloMosaic.ValueIdx

/-! ## The index words -/

/-- jnp's remainder on one word `x` by the word `d`: a zero divisor becomes one, the truncating remainder is taken, and
    the divisor is added where the remainder is non-zero and its sign differs from the divisor's. -/
def remW (x d : BitVec 32) : BitVec 32 :=
  let d' := Scalar.select (IntOp.cmpi .eq d 0#32) 1#32 d
  let r := IntOp.remsi .host x d'
  Scalar.select (IntOp.andi (IntOp.cmpi .ne (IntOp.cmpi .slt r 0#32) (IntOp.cmpi .slt d' 0#32)) (IntOp.cmpi .ne r 0#32))
    (IntOp.addi r d') r

/-- The negative-index wrap on one word: 4096 is added where the word is negative. -/
def wrapW (r : BitVec 32) : BitVec 32 :=
  Scalar.select (IntOp.cmpi .slt r 0#32) (IntOp.addi r 4096#32) r

/-- The grid at (n, k) is the remainder by 4096 of origin n plus the offset k: the broadcasts read the origin table at
    n and the offsets 0, …, 31 at k. -/
theorem gridTerm_apply (o : IVec S512 32) (n : Fin 512) (k : Fin 32) :
    gridTerm o (ix2 n k) = remW (o (ix1 n) + BitVec.ofNat 32 k.val) 4096#32 := by
  show remW (IntOp.addi (o _) (BitVec.ofNat 32 _)) 4096#32 = _
  refine congrArg₂ (fun a b => remW (a + BitVec.ofNat 32 b) 4096#32) (congrArg o ?_) ?_
  · funext a
    match a with
    | ⟨0, _⟩ => rfl
  · rfl

/-- The first component of the start index at (n, i, jj) is the wrapped row grid at (n, i): the concatenation's
    position 0 lies in its first piece, and the broadcasts along jj and the unit axes read the grid at (n, i). -/
theorem startsTerm_apply0 (ys xs : IVec S512 32) (n : Fin 512) (i jj : Fin 32) :
    startsTerm ys xs (ix4 n i jj (0 : Fin 2)) = wrapW (gridTerm ys (ix2 n i)) := by
  unfold startsTerm
  refine (concatenate_pair_apply_left (t := S512x32x32x2) (s₁ := S512x32x32x1) (s₂ := S512x32x32x1) (3 : Fin 4) _ _
    Facts₀.concatenates_S512x32x32x1_S512x32x32x1_S512x32x32x2_d3
    (ix4 n i jj (0 : Fin 2)) rfl (ix4 n i jj (0 : Fin 1)) ?_).trans ?_
  · intro b
    match b with
    | ⟨0, _⟩ => rfl
    | ⟨1, _⟩ => rfl
    | ⟨2, _⟩ => rfl
    | ⟨3, _⟩ => rfl
  · show wrapW (gridTerm ys _) = _
    refine congrArg (fun idx => wrapW (gridTerm ys idx)) ?_
    funext a
    match a with
    | ⟨0, _⟩ => rfl
    | ⟨1, _⟩ => rfl

/-- The second component of the start index at (n, i, jj) is the wrapped column grid at (n, jj): the concatenation's
    position 1 is position 0 of its second piece, and the broadcasts along i and the unit axes read the grid at (n, jj). -/
theorem startsTerm_apply1 (ys xs : IVec S512 32) (n : Fin 512) (i jj : Fin 32) :
    startsTerm ys xs (ix4 n i jj (1 : Fin 2)) = wrapW (gridTerm xs (ix2 n jj)) := by
  unfold startsTerm
  refine (concatenate_pair_apply_right (t := S512x32x32x2) (s₁ := S512x32x32x1) (s₂ := S512x32x32x1) (3 : Fin 4) _ _
    Facts₀.concatenates_S512x32x32x1_S512x32x32x1_S512x32x32x2_d3
    (ix4 n i jj (1 : Fin 2)) rfl rfl (ix4 n i jj (0 : Fin 1)) ?_ ?_).trans ?_
  · intro b hb
    match b with
    | ⟨0, _⟩ => rfl
    | ⟨1, _⟩ => rfl
    | ⟨2, _⟩ => rfl
    | ⟨3, _⟩ => exact absurd rfl hb
  · rfl
  · show wrapW (gridTerm xs _) = _
    refine congrArg (fun idx => wrapW (gridTerm xs idx)) ?_
    funext a
    match a with
    | ⟨0, _⟩ => rfl
    | ⟨1, _⟩ => rfl

/-- The two's-complement facts of an index word: for an origin below 4096 and an offset below 32 the sum does not
    wrap; its truncating remainder by 4096 is the unsigned remainder, which is non-negative, so neither sign
    correction adds the divisor; and the word read signed is (origin + offset) mod 4096. -/
theorem wrap_word (o : BitVec 32) (k : Nat) (ho : o.toNat < 4096) (hk : k < 32) :
    (wrapW (remW (o + BitVec.ofNat 32 k) 4096#32)).toInt.toNat = (o.toNat + k) % 4096 := by
  have hw : (o + BitVec.ofNat 32 k).toNat = o.toNat + k := by
    rw [BitVec.toNat_add, BitVec.toNat_ofNat]; omega
  generalize o + BitVec.ofNat 32 k = w at hw
  -- the divisor 4096 is not zero, and is positive
  have hd : Scalar.select (IntOp.cmpi .eq 4096#32 0#32) 1#32 4096#32 = 4096#32 := by decide
  have hdneg : IntOp.cmpi .slt 4096#32 0#32 = 0#1 := by decide
  -- the remainder of a word below 2³¹ by 4096 is the remainder of its value, a word below 4096
  have hr : (IntOp.remsi .host w 4096#32).toNat = w.toNat % 4096 :=
    IntOp.toNat_remsi .host (by omega) 4096 (by omega) (by omega)
  generalize hrr : IntOp.remsi .host w 4096#32 = r at hr
  have hrlt : r.toNat < 2 ^ 31 := by omega
  -- so it is not negative
  have hneg : IntOp.cmpi .slt r 0#32 = 0#1 := by
    apply eq_zero_of_ne_one
    rw [StableHlo.Predicate.slt_iff_toNat hrlt (by decide)]
    exact Nat.not_lt_zero _
  have hne : IntOp.cmpi .ne (0#1) (0#1) = 0#1 := by decide
  have hand : ∀ c : BitVec 1, IntOp.andi 0#1 c = 0#1 := by decide
  unfold wrapW remW
  simp only [hd, hrr, hneg, hdneg, hne, hand, select_zero]
  rw [StableHlo.Predicate.toInt_eq_toNat_of_lt hrlt, Int.toNat_natCast, hr, hw]

/-! ## The gather -/

/-- The gather's dimension numbers: result axis 0 is the offset axis and runs over the operand's channel axis; operand
    axes 1 and 2 are collapsed and take the two components of the start index, which lie along axis 3 of the start
    indices; the result's axes 1, 2, 3 are the start indices' axes 0, 1, 2. -/
abbrev patchGather : GatherDims S3x4096x4096 S512x32x32x2 S3x512x32x32 :=
  gather_S3x4096x4096_S512x32x32x2_S3x512x32x32_0_12_n_n_12_3_311

/-- The gather at (ch, n, i, jj) is the operand at channel ch and at the row and column the two components of the
    start index at (n, i, jj) name, each read signed and clamped to [0, 4095]. -/
theorem gather_apply {α : Type} (x : S3x4096x4096.Idx → α) (idx : IVec S512x32x32x2 32)
    (ch : Fin 3) (n : Fin 512) (i jj : Fin 32) :
    Host.gather patchGather x idx (ix4 ch n i jj) =
      x (ix3 ch ⟨min (idx (ix4 n i jj (0 : Fin 2))).toInt.toNat 4095, by omega⟩
                ⟨min (idx (ix4 n i jj (1 : Fin 2))).toInt.toNat 4095, by omega⟩) := by
  unfold Host.gather
  refine congrArg x ?_
  funext a
  refine Fin.ext ?_
  -- where component c of the start index is read: (n, i, jj, c)
  have hsi0 : patchGather.siIdx (ix4 ch n i jj) ⟨0, by decide⟩ = ix4 n i jj (0 : Fin 2) := by
    funext b
    match b with
    | ⟨0, _⟩ => rfl
    | ⟨1, _⟩ => rfl
    | ⟨2, _⟩ => rfl
    | ⟨3, _⟩ => rfl
  have hsi1 : patchGather.siIdx (ix4 ch n i jj) ⟨1, by decide⟩ = ix4 n i jj (1 : Fin 2) := by
    funext b
    match b with
    | ⟨0, _⟩ => rfl
    | ⟨1, _⟩ => rfl
    | ⟨2, _⟩ => rfl
    | ⟨3, _⟩ => rfl
  match a with
  | ⟨0, _⟩ =>
    -- the channel axis: no start, no batching, the offset coordinate is the result's coordinate on axis 0
    show patchGather.start (ix4 ch n i jj) idx 0 + patchGather.batchCoord (ix4 ch n i jj) 0
      + patchGather.offCoord (ix4 ch n i jj) 0 = ch.val
    have hb : patchGather.batchCoord (ix4 ch n i jj) 0 = 0 := rfl
    have ho : patchGather.offCoord (ix4 ch n i jj) 0 = ch.val := rfl
    have hs : patchGather.start (ix4 ch n i jj) idx 0 = 0 := rfl
    rw [hb, ho, hs]; omega
  | ⟨1, _⟩ =>
    -- the row axis: collapsed, its start the first component clamped to [0, 4096 − 1]
    show patchGather.start (ix4 ch n i jj) idx 1 + patchGather.batchCoord (ix4 ch n i jj) 1
      + patchGather.offCoord (ix4 ch n i jj) 1 = min (idx (ix4 n i jj (0 : Fin 2))).toInt.toNat 4095
    have hb : patchGather.batchCoord (ix4 ch n i jj) 1 = 0 := rfl
    have ho : patchGather.offCoord (ix4 ch n i jj) 1 = 0 := rfl
    have hs : patchGather.start (ix4 ch n i jj) idx 1
        = min (idx (patchGather.siIdx (ix4 ch n i jj) ⟨0, by decide⟩)).toInt.toNat 4095 := rfl
    rw [hb, ho, hs, hsi0]; rfl
  | ⟨2, _⟩ =>
    -- the column axis: collapsed, its start the second component clamped to [0, 4096 − 1]
    show patchGather.start (ix4 ch n i jj) idx 2 + patchGather.batchCoord (ix4 ch n i jj) 2
      + patchGather.offCoord (ix4 ch n i jj) 2 = min (idx (ix4 n i jj (1 : Fin 2))).toInt.toNat 4095
    have hb : patchGather.batchCoord (ix4 ch n i jj) 2 = 0 := rfl
    have ho : patchGather.offCoord (ix4 ch n i jj) 2 = 0 := rfl
    have hs : patchGather.start (ix4 ch n i jj) idx 2
        = min (idx (patchGather.siIdx (ix4 ch n i jj) ⟨1, by decide⟩)).toInt.toNat 4095 := rfl
    rw [hb, ho, hs, hsi1]; rfl

/-! ## The term -/

/-- For origins in range the reference's term is the torus gather, entry by entry. -/
theorem refTerm_eq {α : Type} (img : S1x3x4096x4096.Idx → α) (ys xs : IVec S512 32)
    (hr : ∀ n : S512.Idx, (ys n).toNat < 4096 ∧ (xs n).toNat < 4096) :
    refTerm img ys xs = Cert.Patch.G img ys xs := by
  funext j
  obtain ⟨b, q, i, jj, rfl⟩ : ∃ (b : Fin 256) (q : Fin 6) (i jj : Fin 32), j = ix4 b q i jj :=
    ⟨j 0, j 1, j 2, j 3, eq_ix4 j⟩
  have hb := b.isLt
  have hq := q.isLt
  have hi := i.isLt
  have hjj := jj.isLt
  -- the patch and the channel of output entry (b, q, ·, ·); 2 b + q / 3 is below 512, so reducing it mod 512 keeps it
  let n : Fin 512 := ⟨(2 * b.val + q.val / 3) % 512, Nat.mod_lt _ (by decide)⟩
  let ch : Fin 3 := ⟨q.val % 3, Nat.mod_lt _ (by decide)⟩
  have hn : n.val = 2 * b.val + q.val / 3 := by show (2 * b.val + q.val / 3) % 512 = _; omega
  have hch : ch.val = q.val % 3 := rfl
  -- the row and the column the two index words of (n, i, jj) name: below 4096, so the clamp keeps them
  have hR : min (startsTerm ys xs (ix4 n i jj (0 : Fin 2))).toInt.toNat 4095
      = ((ys (ix1 n)).toNat + i.val) % 4096 := by
    rw [startsTerm_apply0, gridTerm_apply, wrap_word _ _ (hr (ix1 n)).1 hi]; omega
  have hC : min (startsTerm ys xs (ix4 n i jj (1 : Fin 2))).toInt.toNat 4095
      = ((xs (ix1 n)).toNat + jj.val) % 4096 := by
    rw [startsTerm_apply1, gridTerm_apply, wrap_word _ _ (hr (ix1 n)).2 hjj]; omega
  show shapeCast S256x6x32x32
      (transpose S512x3x32x32 [1, 0, 2, 3]
        (Host.gather patchGather (shapeCast S3x4096x4096 img Facts₀.shapeCasts_S1x3x4096x4096_S3x4096x4096)
          (startsTerm ys xs))
        Facts₀.transposes_S3x512x32x32_S512x3x32x32_1_0_2_3)
      Facts₀.shapeCasts_S512x3x32x32_S256x6x32x32 (ix4 b q i jj) = _
  -- the final reshape keeps the row-major position: (b, q, i, jj) of [256, 6, 32, 32] is (n, ch, i, jj) of [512, 3, 32, 32],
  -- since 6 b + q = 3 (2 b + q / 3) + q mod 3
  refine (shapeCast_apply _ _ (ix4 b q i jj) (ix4 n ch i jj) ?_).trans ?_
  · rw [Shape.rowMajor_val_four, Shape.rowMajor_val_four]
    show ((n.val * 3 + ch.val) * 32 + i.val) * 32 + jj.val = ((b.val * 6 + q.val) * 32 + i.val) * 32 + jj.val
    rw [hn, hch]; omega
  -- the transpose exchanges the first two axes
  refine (transpose_apply _ _ _ (ix4 n ch i jj) (ix4 ch n i jj) ?_).trans ?_
  · intro a
    match a with
    | ⟨0, _⟩ => rfl
    | ⟨1, _⟩ => rfl
    | ⟨2, _⟩ => rfl
    | ⟨3, _⟩ => rfl
  -- the gather reads the operand at the channel and the two clamped index words
  rw [gather_apply]
  -- the first reshape only drops the unit axis: (ch, r, c) of [3, 4096, 4096] is (0, ch, r, c) of [1, 3, 4096, 4096]
  refine (shapeCast_apply _ _ _
    (Cert.Patch.imgIdx q.val ((ys (ix1 n)).toNat + i.val) ((xs (ix1 n)).toNat + jj.val)) ?_).trans ?_
  · rw [Shape.rowMajor_val_four, Shape.rowMajor_val_three]
    show ((0 * 3 + q.val % 3) * 4096 + ((ys (ix1 n)).toNat + i.val) % 4096) * 4096
        + ((xs (ix1 n)).toNat + jj.val) % 4096
      = (ch.val * 4096 + min (startsTerm ys xs (ix4 n i jj (0 : Fin 2))).toInt.toNat 4095) * 4096
        + min (startsTerm ys xs (ix4 n i jj (1 : Fin 2))).toInt.toNat 4095
    rw [hR, hC, hch]; omega
  -- the specification reads the tables at entry (2 b + q / 3) mod 512, which is entry n
  rfl

end Cert.ReferenceIdeal.PatchValue

end
-- ==== Proof.RefValue.lean ====
/-
  The idealized reference's result: for origins in [0, 4096) its modular indexing is the torus gather of the image.
-/
import proofs.«417583_j26929444946676_1_alg».proof.Defs
import proofs.«417583_j26929444946676_1_alg».proof.Proof.Gen.ReferenceIdeal
import proofs.«417583_j26929444946676_1_alg».proof.Proof.Spec
import proofs.«417583_j26929444946676_1_alg».proof.Proof.RefTerm
import proofs.«417583_j26929444946676_1_alg».proof.Proof.RefRun
import proofs.«417583_j26929444946676_1_alg».proof.Proof.RefRead

set_option maxRecDepth 16384

noncomputable section

namespace Cert.ReferenceIdeal.PatchValue

open Cert.ReferenceIdeal
open Idealize.ShloMosaic Idealize.ShloMosaic.TcCoe Idealize.SL.Sem

variable (m : (ℓ : Loc nD τ sig) → Buf (Elt Ideal) ℓ) (ρ : Dev nD → PrngReg)

/-- The run, read: for origins in range the result ends at the torus gather of the arguments, the arguments unchanged. -/
theorem run
    (hr : ∀ (c : Dev nD) (n : S512.Idx), (m ((c.tc : Thread nD τ).loc main_arg1) n).toNat < 4096
      ∧ (m ((c.tc : Thread nD τ).loc main_arg2) n).toNat < 4096) :
    θ_run (defs (F := Ideal)) (onTc (τ := τ) (main (F := Ideal))) ⟨m, fun _ => 0, ρ⟩ fun r => ∀ c : Dev nD,
      r.2.mem ((c.tc : Thread nD τ).loc main_v34)
          = Cert.Patch.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans (refTerm_eq _ _ _ (hr c)), (h c).2⟩) (run_term m ρ)

end Cert.ReferenceIdeal.PatchValue

end
-- ==== Proof.lean ====
/-
  The patch gather on the torus: 512 windows of 32 x 32 entries, three channels each, cut out of a 4096 x 4096
  image at origins (ys[n], xs[n]) with wrap-around, laid out as f32[256, 6, 32, 32] (entry (b, 3 s + ch, i, j) is
  patch 2 b + s, channel ch).

  The kernel pads the image with its first 31 rows and then its first 31 columns and copies, for each patch, the
  window of the padded image at the origin; the reference reads the image at (ys[n] + i) mod 4096 and
  (xs[n] + j) mod 4096. For origins in [0, 4096) — the precondition — the window fits the padded image
  (4095 + 32 = 4127) and row y + i < 4127 of the padded image is row (y + i) mod 4096 of the image, likewise the
  columns: both programs compute the one function `Cert.Patch.G` of their arguments. No float is ever operated
  on, so the equality holds for any values, finite or not.
-/
import proofs.«417583_j26929444946676_1_alg».proof.Defs
import proofs.«417583_j26929444946676_1_alg».proof.Proof.Gen.Kernel
import proofs.«417583_j26929444946676_1_alg».proof.Proof.Gen.Kernel.Skeleton
import proofs.«417583_j26929444946676_1_alg».proof.Proof.Gen.Kernel.Launch
import proofs.«417583_j26929444946676_1_alg».proof.Proof.Gen.Kernel.Points
import proofs.«417583_j26929444946676_1_alg».proof.Proof.Gen.Kernel.Frame
import proofs.«417583_j26929444946676_1_alg».proof.Proof.Gen.KernelIdeal
import proofs.«417583_j26929444946676_1_alg».proof.Proof.Gen.KernelIdeal.Skeleton
import proofs.«417583_j26929444946676_1_alg».proof.Proof.Gen.KernelIdeal.Launch
import proofs.«417583_j26929444946676_1_alg».proof.Proof.Gen.KernelIdeal.Points
import proofs.«417583_j26929444946676_1_alg».proof.Proof.Gen.KernelIdeal.Frame
import proofs.«417583_j26929444946676_1_alg».proof.Proof.Gen.ReferenceIdeal
import proofs.«417583_j26929444946676_1_alg».proof.Proof.Gen.Pre_finite_inputs
import proofs.«417583_j26929444946676_1_alg».proof.Proof.Spec
import proofs.«417583_j26929444946676_1_alg».proof.Proof.PreRange
import proofs.«417583_j26929444946676_1_alg».proof.Proof.KernelHyps
import proofs.«417583_j26929444946676_1_alg».proof.Proof.KernelIdealHyps
import proofs.«417583_j26929444946676_1_alg».proof.Proof.KernelValue
import proofs.«417583_j26929444946676_1_alg».proof.Proof.RefValue
import Idealize.ShloMosaic.Adequacy
import Idealize.ShloMosaic.Init

noncomputable section

namespace Cert.Proof

open Idealize.ShloMosaic Idealize.SL.Sem

/-- The word-level kernel's origins are in range under its precondition. -/
theorem range_k (m : (ℓ : Loc Cert.Kernel.nD Cert.Kernel.τ Cert.Kernel.sig) → Buf (Elt Bits) ℓ) (h : Cert.Pre_Kernel m)
    (c : Dev Cert.Kernel.nD) (n : Cert.Kernel.S512.Idx) :
    (m ((c.tc : Thread Cert.Kernel.nD Cert.Kernel.τ).loc Cert.Kernel.main_arg1) n).toNat < 4096
      ∧ (m ((c.tc : Thread Cert.Kernel.nD Cert.Kernel.τ).loc Cert.Kernel.main_arg2) n).toNat < 4096 :=
  Cert.Patch.range_of_pre (F := Bits) _ _ _ (h c) n

/-- The idealized kernel's origins are in range under its precondition. -/
theorem range_ki (m : (ℓ : Loc Cert.KernelIdeal.nD Cert.KernelIdeal.τ Cert.KernelIdeal.sig) → Buf (Elt Ideal) ℓ)
    (h : Cert.Pre_KernelIdeal m) (c : Dev Cert.KernelIdeal.nD) (n : Cert.KernelIdeal.S512.Idx) :
    (m ((c.tc : Thread Cert.KernelIdeal.nD Cert.KernelIdeal.τ).loc Cert.KernelIdeal.main_arg1) n).toNat < 4096
      ∧ (m ((c.tc : Thread Cert.KernelIdeal.nD Cert.KernelIdeal.τ).loc Cert.KernelIdeal.main_arg2) n).toNat < 4096 :=
  Cert.Patch.range_of_pre (F := Ideal) _ _ _ (h c) n

/-- The idealized reference's origins are in range under its precondition. -/
theorem range_ri (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (n : Cert.ReferenceIdeal.S512.Idx) :
    (m ((c.tc : Thread Cert.ReferenceIdeal.nD Cert.ReferenceIdeal.τ).loc Cert.ReferenceIdeal.main_arg1) n).toNat < 4096
      ∧ (m ((c.tc : Thread Cert.ReferenceIdeal.nD Cert.ReferenceIdeal.τ).loc Cert.ReferenceIdeal.main_arg2) n).toNat < 4096 :=
  Cert.Patch.range_of_pre (F := Ideal) _ _ _ (h c) n

theorem frame_k : Cert.frame_Kernel := fun m ρ h =>
  Cert.Kernel.Gen.frame m ρ (Cert.Kernel.HypsOfPre.ok m)
    (Cert.Kernel.HypsOfPre.hyps_of_range m _ (range_k m h 0))

theorem frame_ki : Cert.frame_KernelIdeal := fun m ρ h =>
  Cert.KernelIdeal.Gen.frame m ρ (Cert.KernelIdeal.HypsOfPre.ok m)
    (Cert.KernelIdeal.HypsOfPre.hyps_of_range m _ (range_ki m h 0))

theorem frame_ri : Cert.frame_ReferenceIdeal := fun m ρ h =>
  (θ_run Cert.ReferenceIdeal.defs _ _).mono (fun _ h c => (h c).2)
    (Cert.ReferenceIdeal.PatchValue.run m ρ (range_ri m h))

/-- Both idealized programs end at the torus gather of arguments that agree. -/
theorem algebraic : Cert.algebraic_KernelIdeal_ReferenceIdeal := by
  intro m ρ m' ρ' hpre hagree
  have hr' : ∀ (c : Dev Cert.ReferenceIdeal.nD) (n : Cert.ReferenceIdeal.S512.Idx),
      (m' ((c.tc : Thread Cert.ReferenceIdeal.nD Cert.ReferenceIdeal.τ).loc Cert.ReferenceIdeal.main_arg1) n).toNat < 4096
        ∧ (m' ((c.tc : Thread Cert.ReferenceIdeal.nD Cert.ReferenceIdeal.τ).loc Cert.ReferenceIdeal.main_arg2) n).toNat < 4096 := by
    intro c n
    rw [(hagree c).2.1, (hagree c).2.2]
    exact range_ki m hpre c n
  refine ⟨fun c => Cert.Patch.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.PatchValue.run m ρ (Cert.KernelIdeal.HypsOfPre.ok m)
      (Cert.KernelIdeal.HypsOfPre.hyps_of_range m _ (range_ki m hpre 0)), ?_⟩
  refine (θ_run Cert.ReferenceIdeal.defs _ _).mono (fun _ h c => ⟨(h c).1.trans ?_, (h c).2⟩)
    (Cert.ReferenceIdeal.PatchValue.run m' ρ' hr')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
